-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x256 .f32) (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S10000x128 .f32) (main_arg1 : FVec F S10000x128 .f32) (main_arg2 : FVec F S10000x10000 .f32) (main_arg3 : FVec F S128x128 .f32) (main_arg4 : FVec F S128x256 .f32) (main_arg5 : FVec F S128 .f32) (main_arg6 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S128 : Shape := ⟨1, ![128]⟩
abbrev S_ : Shape := ⟨0, ![]⟩
abbrev S8x128 : Shape := ⟨2, ![8, 128]⟩
abbrev S1 : Shape := ⟨1, ![1]⟩
abbrev S200x10000 : Shape := ⟨2, ![200, 10000]⟩
abbrev S200x128 : Shape := ⟨2, ![200, 128]⟩
abbrev S1x128 : Shape := ⟨2, ![1, 128]⟩
abbrev S1000x128 : Shape := ⟨2, ![1000, 128]⟩

abbrev nBuf : Space → Nat
  | .hbm => 24
  | .vmem => 17
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S128x128, .f32⟩
  | .hbm, ⟨4, _⟩ => ⟨S128x256, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S_, .f32⟩
  | .hbm, ⟨13, _⟩ => ⟨S8x128, .f32⟩
  | .hbm, ⟨14, _⟩ => ⟨S_, .i32⟩
  | .hbm, ⟨15, _⟩ => ⟨S1, .i32⟩
  | .hbm, ⟨16, _⟩ => ⟨S8x128, .f32⟩
  | .hbm, ⟨17, _⟩ => ⟨S_, .i32⟩
  | .hbm, ⟨18, _⟩ => ⟨S1, .i32⟩
  | .hbm, ⟨19, _⟩ => ⟨S8x128, .f32⟩
  | .hbm, ⟨20, _⟩ => ⟨S10000x128, .bf16⟩
  | .hbm, ⟨21, _⟩ => ⟨S10000x128, .f32⟩
  | .hbm, ⟨22, _⟩ => ⟨S8x128, .f32⟩
  | .hbm, ⟨23, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .bf16⟩
  | .local _ .vmem, ⟨3, _⟩ => ⟨S128x128, .f32⟩
  | .local _ .vmem, ⟨4, _⟩ => ⟨S200x128, .f32⟩
  | .local _ .vmem, ⟨5, _⟩ => ⟨S200x128, .f32⟩
  | .local _ .vmem, ⟨6, _⟩ => ⟨S8x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S128x128, .f32⟩
  | .local _ .vmem, ⟨12, _⟩ => ⟨S128x128, .f32⟩
  | .local _ .vmem, ⟨13, _⟩ => ⟨S8x128, .f32⟩
  | .local _ .vmem, ⟨14, _⟩ => ⟨S8x128, .f32⟩
  | .local _ .vmem, ⟨15, _⟩ => ⟨S1000x128, .f32⟩
  | .local _ .vmem, ⟨16, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_call0_c : Ref sig .tc := ⟨.hbm, 14, rfl⟩
abbrev main_call0_v6 : Ref sig .tc := ⟨.hbm, 15, rfl⟩
abbrev main_call0_v7 : Ref sig .tc := ⟨.hbm, 16, rfl⟩
abbrev main_call0_c_0 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11_0 : Ref sig .tc := ⟨.hbm, 21, rfl⟩
abbrev main_call0_v11_1 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S128x128_S128x128_1_0 : S128x128.Transposes [1, 0] S128x128
  slices_S128x256_S128x128_0_0 : S128x256.Slices ![0, 0] S128x128
  slices_S128x256_S128x128_0_128 : S128x256.Slices ![0, 128] S128x128
  bcast_S_S8x128 : S_.BroadcastsInDim S8x128 (![] : Fin 0 → Fin S8x128.rank)
  bcast_S_S1 : S_.BroadcastsInDim S1 (![] : Fin 0 → Fin S1.rank)
  bitsLt_bf16_f32 : FTy.bits .bf16 < FTy.bits .f32
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S200x128_S200x128_0_0 : ∀ a, (![0, 0] : Fin 2 → Nat) a + S200x128.size a ≤ S200x128.size a
  h_S200x128 : 0 < S200x128.numel
  inb_S8x128_S8x128_0_0 : ∀ a, (![0, 0] : Fin 2 → Nat) a + S8x128.size a ≤ S8x128.size a
  h_S8x128 : 0 < S8x128.numel
  inb_S8x128_S1x128_0_0 : ∀ a, (![0, 0] : Fin 2 → Nat) a + S1x128.size a ≤ S8x128.size a
  h_S1x128 : 0 < S1x128.numel
  shapeCasts_S1x128_S1x128 : S1x128.ShapeCasts S1x128
  reduces_S200x128_S128 : S200x128.Reduces [0] S128
  shapeCasts_S128_S1x128 : S128.ShapeCasts S1x128
  inb_S8x128_S1x128_1_0 : ∀ a, (![1, 0] : Fin 2 → Nat) a + S1x128.size a ≤ S8x128.size a
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  scatter_S8x128_S1_S128_0_0_0_0_wf : ScatterDims.WF S8x128 S1 S128 [0] [0] [0] 0
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S10000x128.size a
  hwx0_3 : ∀ i : grid0.Coords, EltTy.bits .f32 = 32 ∨ (Rect.block (s := S10000x128) S200x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S10000x128.size a
  hwx1_1 : ∀ i : grid1.Coords, EltTy.bits .f32 = 32 ∨ (Rect.block (s := S10000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S8x128.size a
  hwx1_4 : ∀ i : grid1.Coords, EltTy.bits .f32 = 32 ∨ (Rect.block (s := S8x128) S8x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S8x128.size a
  hwx1_5 : ∀ i : grid1.Coords, EltTy.bits .f32 = 32 ∨ (Rect.block (s := S8x128) S8x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S10000x128.size a
  hwx1_6 : ∀ i : grid1.Coords, EltTy.bits .f32 = 32 ∨ (Rect.block (s := S10000x128) S1000x128.size (cc1_transform_6 i) (hinb1_6 i)).WholeWords (EltTy.packing .f32)

variable [Facts₀]

def scatter_S8x128_S1_S128_0_0_0_0 : ScatterDims S8x128 S1 S128 where
  updateWindowDims := [0]
  insertedWindowDims := [0]
  scatterDimsToOperandDims := [0]
  indexVectorDim := 0
  wf := scatter_S8x128_S1_S128_0_0_0_0_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg2) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v10) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v11_0) S200x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11_1) S8x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v11_0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v11_1) S8x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v9) S8x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S128 : Shape := ⟨1, ![128]⟩
abbrev S_ : Shape := ⟨0, ![]⟩
abbrev S1x128 : Shape := ⟨2, ![1, 128]⟩
abbrev S10000x256 : Shape := ⟨2, ![10000, 256]⟩
abbrev S256x128 : Shape := ⟨2, ![256, 128]⟩

abbrev nBuf : Space → Nat
  | .hbm => 59
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S128x128, .f32⟩
  | .hbm, ⟨4, _⟩ => ⟨S128x256, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S_, .f32⟩
  | .hbm, ⟨14, _⟩ => ⟨S1x128, .f32⟩
  | .hbm, ⟨15, _⟩ => ⟨S1x128, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S_, .f32⟩
  | .hbm, ⟨21, _⟩ => ⟨S1x128, .f32⟩
  | .hbm, ⟨22, _⟩ => ⟨S1x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S10000x128, .f32⟩
  | .hbm, ⟨41, _⟩ => ⟨S10000x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S10000x128, .f32⟩
  | .hbm, ⟨47, _⟩ => ⟨S10000x128, .f32⟩
  | .hbm, ⟨48, _⟩ => ⟨S1x128, .f32⟩
  | .hbm, ⟨49, _⟩ => ⟨S10000x128, .f32⟩
  | .hbm, ⟨50, _⟩ => ⟨S10000x128, .f32⟩
  | .hbm, ⟨51, _⟩ => ⟨S1x128, .f32⟩
  | .hbm, ⟨52, _⟩ => ⟨S10000x128, .f32⟩
  | .hbm, ⟨53, _⟩ => ⟨S10000x128, .f32⟩
  | .hbm, ⟨54, _⟩ => ⟨S10000x128, .f32⟩
  | .hbm, ⟨55, _⟩ => ⟨S10000x256, .f32⟩
  | .hbm, ⟨56, _⟩ => ⟨S256x128, .f32⟩
  | .hbm, ⟨57, _⟩ => ⟨S10000x128, .f32⟩
  | .hbm, ⟨58, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst_1 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩

abbrev nD : Nat := 1
abbrev τ : Topo := Topo.v7x

variable {F : FTy → Type} [FloatOps F]

class Facts₀ : Prop where
  transposes_S128x128_S128x128_1_0 : S128x128.Transposes [1, 0] S128x128
  reducesTo_S10000x128_S128_d0 : S10000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S10000x128_0_1 : S1x128.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Spec.lean ====
/-
  The mathematics of this certificate, as functions of the argument arrays read at their coordinates.

  The inputs are seq_self, seq : [10000, 128], adj : [10000, 10000], W1 : [128, 128], W2 : [128, 256] and
  gamma, beta : [128]. With h the [10000, 128] product of adj, seq and the transpose of W1, each column of h is
  normalised by its mean and its (population) variance over the 10000 rows, scaled by gamma, shifted by beta and
  passed through tanh; the result, put beside seq_self, is multiplied by the transpose of W2 and passed through
  tanh again.

  The two programs spell this differently.
  * The kernel computes h as (adj · seq) · W1ᵀ, accumulates per column the sum of h and the sum of h², takes
    the mean as the sum times 1/10000 and the variance as (sum of squares) · 1/10000 − mean², folds gamma, beta, the
    mean and the reciprocal square root into one scale and one shift per column, and splits the last product into
    the half of W2 that meets seq_self and the half that meets the normalised part.
  * The reference computes h as adj · (seq · W1ᵀ), the mean as the sum divided by 10000, the variance as the mean
    of the squared deviations, (h − mean) / sqrt (variance + ε) · gamma + beta, and one product over the 256
    concatenated columns.
  Every array is a function of coordinates into the extended reals; `arr2` and `fn2` pass between such a
  function and an array indexed by a rank-2 index.
-/
import Idealize.ShloMosaic.PureOps.Ideal
import Idealize.ShloMosaic.Lib.ValueIdx

noncomputable section

namespace Cert.Spec

open Idealize.ShloMosaic Idealize.ShloMosaic.ValueIdx
open scoped BigOperators

/-! ## Arrays and functions of coordinates -/

/-- The rank-2 array whose entry at `(p, q)` is `f p q`. -/
def arr2 {n k : ℕ} (f : Fin n → Fin k → EReal) : (⟨2, ![n, k]⟩ : Shape).Idx → EReal := fun idx => f (idx 0) (idx 1)
/-- A rank-2 array as a function of its two coordinates. -/
def fn2 {n k : ℕ} (a : (⟨2, ![n, k]⟩ : Shape).Idx → EReal) : Fin n → Fin k → EReal := fun p q => a (ix2 p q)
/-- A rank-1 array as a function of its coordinate. -/
def fn1 {n : ℕ} (a : (⟨1, ![n]⟩ : Shape).Idx → EReal) : Fin n → EReal := fun p => a (ix1 p)

theorem arr2_ix2 {n k : ℕ} (f : Fin n → Fin k → EReal) (p : Fin n) (q : Fin k) : arr2 f (ix2 p q) = f p q := rfl
theorem fn2_arr2 {n k : ℕ} (f : Fin n → Fin k → EReal) : fn2 (arr2 f) = f := rfl
theorem arr2_fn2 {n k : ℕ} (a : (⟨2, ![n, k]⟩ : Shape).Idx → EReal) : arr2 (fn2 a) = a := by
  funext idx
  exact congrArg a (eq_ix2 idx).symm

/-! ## The constants -/

/-- The ε both programs add to the variance: the single-precision word nearest 1e-5. -/
def eps : EReal := Ideal.ofBits .f32 0x3727C5AC#32
/-- The kernel's reciprocal of the row count, read as the rational it stands for. -/
def inv : EReal := ((1 / 10000 : ℝ) : EReal)
/-- The reference's row count. -/
def rows : EReal := ((10000 : ℝ) : EReal)

/-! ## The kernel, region by region

Each region is stated at the arrays it is handed, whatever they hold, so that the first region's results and the
host's rearrangements of the weights can be put in afterwards. -/

/-- The first region's product: `(adj · s) · wt` at `(i, j)`. -/
def hK (adj : Fin 10000 → Fin 10000 → EReal) (s : Fin 10000 → Fin 128 → EReal) (wt : Fin 128 → Fin 128 → EReal) :
    Fin 10000 → Fin 128 → EReal :=
  fun i j => ∑ k : Fin 128, (∑ l : Fin 10000, adj i l * s l k) * wt k j

/-- The first region's accumulator, an [8, 128] block: row 0 the column sums of `h`, row 1 the column sums of
    `h²`, the other rows zero. -/
def statsK (h : Fin 10000 → Fin 128 → EReal) : Fin 8 → Fin 128 → EReal :=
  fun r j => if r.val = 0 then ∑ i : Fin 10000, h i j else if r.val = 1 then ∑ i : Fin 10000, h i j * h i j else 0

/-- The mean of column `j` from the row of column sums: the sum times the reciprocal of the row count. -/
def meanRow (s0 : Fin 128 → EReal) (j : Fin 128) : EReal := s0 j * inv
/-- The variance of column `j` from the rows of sums and of sums of squares: the mean of the squares less the
    square of the mean. -/
def varRow (s0 s1 : Fin 128 → EReal) (j : Fin 128) : EReal := s1 j * inv - meanRow s0 j * meanRow s0 j
/-- The scale of column `j`: the first parameter row times the reciprocal square root of variance plus ε. -/
def scaleRow (s0 s1 g : Fin 128 → EReal) (j : Fin 128) : EReal := g j * Ideal.rsqrt (varRow s0 s1 j + eps)
/-- The shift of column `j`: the second parameter row less the scaled mean. -/
def shiftRow (s0 s1 g b : Fin 128 → EReal) (j : Fin 128) : EReal := b j - meanRow s0 j * scaleRow s0 s1 g j
/-- One entry `x` of column `j`, normalised and activated. -/
def actRow (s0 s1 g b : Fin 128 → EReal) (x : EReal) (j : Fin 128) : EReal :=
  Ideal.tanh (x * scaleRow s0 s1 g j + shiftRow s0 s1 g b j)
/-- One row of the second region's result at column `j`, from that row of `h` and of seq_self. -/
def outRow (s0 s1 g b : Fin 128 → EReal) (hrow selfrow : Fin 128 → EReal) (wa wb : Fin 128 → Fin 128 → EReal)
    (j : Fin 128) : EReal :=
  Ideal.tanh ((∑ k : Fin 128, selfrow k * wa k j) + ∑ k : Fin 128, actRow s0 s1 g b (hrow k) k * wb k j)

/-- The second region's result at `(i, j)`, from the arrays it is handed: `h`, seq_self, the two transposed halves of
    W2, the accumulator (rows 0 and 1) and the parameter block (rows 0 and 1). -/
def outK1 (h self : Fin 10000 → Fin 128 → EReal) (wa wb : Fin 128 → Fin 128 → EReal) (st gb : Fin 8 → Fin 128 → EReal) :
    Fin 10000 → Fin 128 → EReal :=
  fun i j => outRow (st 0) (st 1) (gb 0) (gb 1) (h i) (self i) wa wb j

/-! ## What the kernel's host operations hand the regions -/

/-- The transpose of W1. -/
def w1t (W1 : Fin 128 → Fin 128 → EReal) : Fin 128 → Fin 128 → EReal := fun k j => W1 j k
/-- The transpose of the half of W2 that meets seq_self. -/
def w2a (W2 : Fin 128 → Fin 256 → EReal) : Fin 128 → Fin 128 → EReal := fun k j => W2 j ⟨k.val, by omega⟩
/-- The transpose of the half of W2 that meets the normalised part. -/
def w2b (W2 : Fin 128 → Fin 256 → EReal) : Fin 128 → Fin 128 → EReal := fun k j => W2 j ⟨128 + k.val, by omega⟩
/-- The parameter block: gamma in row 0, beta in row 1, zero below. -/
def gbK (γ β : Fin 128 → EReal) : Fin 8 → Fin 128 → EReal :=
  fun r j => if r.val = 0 then γ j else if r.val = 1 then β j else 0

/-- The kernel's result as a function of the seven inputs. -/
def outK (self seq : Fin 10000 → Fin 128 → EReal) (adj : Fin 10000 → Fin 10000 → EReal) (W1 : Fin 128 → Fin 128 → EReal)
    (W2 : Fin 128 → Fin 256 → EReal) (γ β : Fin 128 → EReal) : Fin 10000 → Fin 128 → EReal :=
  outK1 (hK adj seq (w1t W1)) self (w2a W2) (w2b W2) (statsK (hK adj seq (w1t W1))) (gbK γ β)

/-! ## The reference -/

/-- The reference's product: `adj · (seq · W1ᵀ)` at `(i, j)`. -/
def hR (seq : Fin 10000 → Fin 128 → EReal) (adj : Fin 10000 → Fin 10000 → EReal) (W1 : Fin 128 → Fin 128 → EReal) :
    Fin 10000 → Fin 128 → EReal :=
  fun i j => ∑ l : Fin 10000, adj i l * ∑ k : Fin 128, seq l k * W1 j k
/-- The reference's mean of column `j`. -/
def meanR (h : Fin 10000 → Fin 128 → EReal) (j : Fin 128) : EReal := Ideal.div (∑ i : Fin 10000, h i j) rows
/-- The reference's variance of column `j`: the mean of the squared deviations. -/
def varR (h : Fin 10000 → Fin 128 → EReal) (j : Fin 128) : EReal :=
  Ideal.div (∑ i : Fin 10000, (h i j - meanR h j) * (h i j - meanR h j)) rows
/-- The reference's normalised, activated entry. -/
def actR (h : Fin 10000 → Fin 128 → EReal) (γ β : Fin 128 → EReal) (i : Fin 10000) (j : Fin 128) : EReal :=
  Ideal.tanh (Ideal.div (h i j - meanR h j) (Ideal.sqrt (varR h j + eps)) * γ j + β j)
/-- seq_self beside the activated part: 256 columns. -/
def catR (self act : Fin 10000 → Fin 128 → EReal) (i : Fin 10000) (k : Fin 256) : EReal :=
  if hk : k.val < 128 then self i ⟨k.val, hk⟩ else act i ⟨k.val - 128, by omega⟩
/-- The reference's result as a function of the seven inputs. -/
def outR (self seq : Fin 10000 → Fin 128 → EReal) (adj : Fin 10000 → Fin 10000 → EReal) (W1 : Fin 128 → Fin 128 → EReal)
    (W2 : Fin 128 → Fin 256 → EReal) (γ β : Fin 128 → EReal) : Fin 10000 → Fin 128 → EReal :=
  fun i j => Ideal.tanh (∑ k : Fin 256, catR self (actR (hR seq adj W1) γ β) i k * W2 j k)

/-- Every entry of an array of coordinates is a real number. -/
def Fin2 {n k : ℕ} (f : Fin n → Fin k → EReal) : Prop := ∀ p q, ∃ r : ℝ, f p q = (r : EReal)
/-- Every entry of a row is a real number. -/
def Fin1 {n : ℕ} (f : Fin n → EReal) : Prop := ∀ p, ∃ r : ℝ, f p = (r : EReal)

end Cert.Spec

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.KPay.lean ====
import proofs.«141231_g61323543053001_cont_9to1c4b_809_8_alg».proof.Proof.Gen.KernelIdeal.Skeleton
import proofs.«141231_g61323543053001_cont_9to1c4b_809_8_alg».proof.Proof.Spec
import proofs.«141231_g61323543053001_cont_9to1c4b_809_8_alg».proof.Proof.LibRowOps

noncomputable section

namespace Cert.KernelIdeal.Pay

open Cert.KernelIdeal Cert.KernelIdeal.Gen Cert.KernelIdeal.Facts₀ Cert.KernelIdeal.Facts Cert.Spec
open Idealize.ShloMosaic Idealize.ShloMosaic.ValueIdx
open scoped BigOperators

/-! ## Three readings the statements share -/

/-- In the reduction of a [200, 128] block over its rows, the source index over column `j` with row `k` inserted
    is `(k, j)`. -/
private theorem lift_rows (h : S200x128.Reduces [0] S128) (j : Fin 128) (k : Fin 200) :
    h.lift (ix1 j) k = ix2 k j :=
  funext fun c => Fin.ext (by
    match c with
    | ⟨0, _⟩ => rfl
    | ⟨1, _⟩ => rfl)

/-- The sum of a [200, 128] block over its rows from a zero accumulator, laid out as one row, at column `j`: the sum
    of column `j`. -/
private theorem colsum_apply (x : FVec Ideal S200x128 .f32) (h : S200x128.Reduces [0] S128) (hc : S128.ShapeCasts S1x128)
    (j : Fin 128) :
    shapeCast S1x128 (multiReduction (F := Ideal) .add [0] S128 x 0x00000000#32 h (.inl rfl) rfl) hc (ix2 0 j)
      = ∑ p : Fin 200, x (ix2 p j) := by
  refine (shapeCast_a_1a_apply _ hc 0 j).trans ?_
  refine (Ideal.multiReduction_add_single x _ h (.inl rfl) rfl (ix1 j)).trans ?_
  exact Finset.sum_congr rfl fun k _ => congrArg x (lift_rows _ j k)

/-- The named reciprocal of the row count denotes the rational 1/10000. -/
private theorem named_inv : Named.named (F := Ideal) κ "inv_10000" (φ := .f32) 0x38D1B717#32 = inv :=
  IdealRules.named_const.ideal_named_scalar _ _ _ _ rfl

/-! ## The payloads -/

/-- The first region's stored product block at `(p, j)`: row `p` of the adj block against seq, then against the
    transposed weights. -/
theorem pay1_apply (x0 : Vec Ideal S200x10000 .f32) (x1 : Vec Ideal S10000x128 .bf16) (x2 : Vec Ideal S128x128 .f32)
    (p : Fin 200) (j : Fin 128) :
    k0_pay1 (F := Ideal) x0 x1 x2 (ix2 p j)
      = ∑ k : Fin 128, (∑ l : Fin 10000, x0 (ix2 p l) * x1 (ix2 l k)) * x2 (ix2 k j) := by
  unfold k0_pay1
  rw [shapeCast_self, shapeCast_self]
  refine LibRowOps.prod_apply _ rfl _ x2 p j (fun k => ∑ l : Fin 10000, x0 (ix2 p l) * x1 (ix2 l k)) (fun k => ?_)
  exact LibRowOps.matmul_plain_apply _ rfl none _ x1 p k

/-- The accumulator's reset block is zero everywhere. -/
theorem pay2_apply (idx : S8x128.Idx) : k0_pay2 (F := Ideal) idx = 0 := by
  unfold k0_pay2
  exact Ideal.ofBits_zero_f32

/-- The accumulator's row 0 after a point: what it held plus the block's column sums. -/
theorem pay3_apply (x0 : Vec Ideal S200x10000 .f32) (x1 : Vec Ideal S10000x128 .bf16) (x2 : Vec Ideal S128x128 .f32)
    (r : Vec Ideal S1x128 .f32) (j : Fin 128) :
    k0_pay3 (F := Ideal) x0 x1 x2 r (ix2 0 j) = r (ix2 0 j) + ∑ p : Fin 200, k0_pay1 (F := Ideal) x0 x1 x2 (ix2 p j) := by
  unfold k0_pay3
  rw [shapeCast_self]
  exact congrArg (r (ix2 0 j) + ·) (colsum_apply (k0_pay1 (F := Ideal) x0 x1 x2) _ _ j)

/-- The accumulator's row 1 after a point: what it held plus the column sums of the block's squares. -/
theorem pay4_apply (x0 : Vec Ideal S200x10000 .f32) (x1 : Vec Ideal S10000x128 .bf16) (x2 : Vec Ideal S128x128 .f32)
    (r : Vec Ideal S1x128 .f32) (j : Fin 128) :
    k0_pay4 (F := Ideal) x0 x1 x2 r (ix2 0 j)
      = r (ix2 0 j) + ∑ p : Fin 200, k0_pay1 (F := Ideal) x0 x1 x2 (ix2 p j) * k0_pay1 (F := Ideal) x0 x1 x2 (ix2 p j) := by
  unfold k0_pay4
  rw [shapeCast_self]
  exact congrArg (r (ix2 0 j) + ·)
    (colsum_apply (mulf (k0_pay1 (F := Ideal) x0 x1 x2) (k0_pay1 (F := Ideal) x0 x1 x2)) _ _ j)

/-- The second region's stored block at `(p, j)`, from the two accumulator rows, the two parameter rows, row `p` of the
    `h` block and of the seq_self block, and the two weight blocks. -/
theorem pay_bn_apply (v0 v4 v10 v16 : Vec Ideal S1x128 .f32) (v20 v27 : Vec Ideal S1000x128 .f32) (v28 v31 : Vec Ideal S128x128 .f32)
    (p : Fin 1000) (j : Fin 128) :
    k1_pay1 (F := Ideal) v0 v4 v10 v16 v20 v27 v28 v31 (ix2 p j)
      = outRow (fun k => v0 (ix2 0 k)) (fun k => v4 (ix2 0 k)) (fun k => v10 (ix2 0 k)) (fun k => v16 (ix2 0 k))
          (fun k => v20 (ix2 p k)) (fun k => v27 (ix2 p k)) (fn2 (n := 128) (k := 128) v28) (fn2 (n := 128) (k := 128) v31) j := by
  unfold k1_pay1
  simp only [shapeCast_self, named_inv]
  unfold outRow
  -- Both sides are tanh of a sum of two products over the 128 columns.
  refine congrArg Ideal.tanh (congrArg₂ (· + ·) ?_ ?_)
  · -- Row p of the seq_self block against the first weight block.
    exact LibRowOps.matmul_plain_apply _ rfl none v27 v28 p j
  · -- Row p of the normalised, activated block against the second weight block: entry (p, k) of the left operand
    -- is tanh (h (p, k) * scale k + shift k), the scale and shift rows being broadcast down the rows.
    refine LibRowOps.prod_apply _ rfl _ v31 p j _ (fun k => ?_)
    refine congrArg Ideal.tanh (congrArg₂ (· + ·) (congrArg (v20 (ix2 p k) * ·) ?_) ?_)
    · exact broadcastTo_1b_ab_apply _ _ p k
    · exact broadcastTo_1b_ab_apply _ _ p k

end Cert.KernelIdeal.Pay

end
-- ==== Proof.KReg0.lean ====
/-
  The first region's two results, read as arrays.

  The region visits fifty points. At point `t` it holds rows `200 t … 200 t + 199` of the adjacency, the whole
  feature array and the whole (transposed) weight array; it stores the `[200, 128]` block
  `(adj · s) · wt` of those rows, and it keeps an `[8, 128]` block of running sums: the first point clears it, and
  every point adds to row 0 the column sums of its product block and to row 1 the column sums of the squares.
  The product blocks are written to rows `200 t …` of a `[10000, 128]` array, one block per point; the block of
  sums is written out once, after the last point.

  So the first array is `hK` of the three inputs (each row belongs to exactly the block of the point `row / 200`),
  and the second is `statsK` of it: after point `n` rows 0 and 1 hold the sums over the rows below
  `200 (n + 1)` (induction on the point, the sum over an initial stretch of rows growing by one block of 200), and
  at the last point that stretch is all 10000 rows.
-/
import proofs.«141231_g61323543053001_cont_9to1c4b_809_8_alg».proof.Proof.Gen.KernelIdeal.Frame
import proofs.«141231_g61323543053001_cont_9to1c4b_809_8_alg».proof.Proof.Spec
import proofs.«141231_g61323543053001_cont_9to1c4b_809_8_alg».proof.Proof.LibRowOps
import proofs.«141231_g61323543053001_cont_9to1c4b_809_8_alg».proof.Proof.KPay
import Idealize.ShloMosaic.Lib.Pipeline.Value
import Idealize.ShloMosaic.Lib.Tactic
import Idealize.ShloMosaic.Lib.WritesUnit

set_option maxRecDepth 16384

noncomputable section

namespace Cert.KernelIdeal.Reg0

open Cert.KernelIdeal Cert.KernelIdeal.Gen Cert.Spec Cert.KernelIdeal.Facts₀ Cert.KernelIdeal.Facts
open Idealize.ShloMosaic Idealize.ShloMosaic.TcCoe Idealize.ShloMosaic.ValueIdx Idealize.ShloMosaic.Tactic
open Idealize.ShloMosaic.Pipeline (Dat)
open scoped BigOperators

/-! ## Stores into an `[8, 128]` block, read back entry by entry -/

theorem zero_off2 : (![0, 0] : Fin 2 → Nat) = fun _ => 0 := funext fun a => by fin_cases a <;> rfl

section Rows
variable {sg : RefSig} {κ : Kind} {sp : Space} {Val : EltTy → Type} {e : EltTy}

/-- Row 1 then row 0 stored last: row 0 and row 1 read the stored rows, the other rows what was written before. -/
theorem read_rows01 (v : View sg κ sp S8x128 e) (f : v.ty.Contents Val)
    (inb1 : ∀ a, (![1, 0] : Fin 2 → Nat) a + S1x128.size a ≤ S8x128.size a)
    (inb0 : ∀ a, (![0, 0] : Fin 2 → Nat) a + S1x128.size a ≤ S8x128.size a)
    (w1 w0 : S1x128.Idx → Val e) (L : List (View.Piece Val S8x128 e)) (r : Fin 8) (j : Fin 128) :
    v.read Val (v.writes Val f (⟨Rect.unit (s := S8x128) ![1, 0] S1x128.size inb1, w1⟩ :: ⟨Rect.unit (s := S8x128) ![0, 0] S1x128.size inb0, w0⟩ :: L)) (ix2 r j)
      = if r.val = 0 then w0 (ix2 0 j) else if r.val = 1 then w1 (ix2 0 j) else v.read Val (v.writes Val f L) (ix2 r j) := by
  by_cases h1 : r.val = 1
  · rw [if_neg (by omega), if_pos h1]
    exact View.read_writes_cons_rows_of_mem (o := 1) v f inb1 w1 _ (ix2 r j) (ix2 0 j) rfl (by show r.val = 1 + 0; omega) rfl
  · by_cases h0 : r.val = 0
    · rw [if_pos h0]
      refine (View.read_writes_cons_rows_of_not_mem (o := 1) (W := 1) v f inb1 w1 _ (ix2 r j) rfl rfl (Or.inl (by show r.val < 1; omega))).trans ?_
      exact View.read_writes_cons_rows_of_mem (o := 0) v f inb0 w0 _ (ix2 r j) (ix2 0 j) rfl (by show r.val = 0 + 0; omega) rfl
    · rw [if_neg h0, if_neg h1]
      refine (View.read_writes_cons_rows_of_not_mem (o := 1) (W := 1) v f inb1 w1 _ (ix2 r j) rfl rfl (Or.inr (by show 1 + 1 ≤ r.val; omega))).trans ?_
      exact View.read_writes_cons_rows_of_not_mem (o := 0) (W := 1) v f inb0 w0 _ (ix2 r j) rfl rfl (Or.inr (by show 0 + 1 ≤ r.val; omega))

/-- One store of the whole block reads as the stored values. -/
theorem read_whole (v : View sg κ sp S8x128 e) (f : v.ty.Contents Val)
    (inbz : ∀ a, (![0, 0] : Fin 2 → Nat) a + S8x128.size a ≤ S8x128.size a)
    (wz : S8x128.Idx → Val e) (r : Fin 8) (j : Fin 128) :
    v.read Val (v.writes Val f [⟨Rect.unit ![0, 0] S8x128.size inbz, wz⟩]) (ix2 r j) = wz (ix2 r j) :=
  View.read_writes_cons_rows_of_mem (o := 0) v f inbz wz [] (ix2 r j) (ix2 r j) rfl (by show r.val = 0 + r.val; omega) rfl

end Rows

section Cov
variable {sg : RefSig} {κ : Kind} {sp : Space} {Val : EltTy → Type} {e : EltTy} [∀ e, Nonempty (Val e)]

/-- Row 0 loaded back from the freshly stored whole block. -/
theorem readCov_whole_row0 (v : View sg κ sp S8x128 e)
    (inbz : ∀ a, (![0, 0] : Fin 2 → Nat) a + S8x128.size a ≤ S8x128.size a)
    (inb0 : ∀ a, (![0, 0] : Fin 2 → Nat) a + S1x128.size a ≤ S8x128.size a)
    (wz : S8x128.Idx → Val e) (j : Fin 128) :
    v.readCov [⟨Rect.unit ![0, 0] S8x128.size inbz, wz⟩] (Rect.unit (s := S8x128) ![0, 0] S1x128.size inb0).toLoadRect (ix2 0 j) = wz (ix2 0 j) := by
  rw [View.readCov_eq_canon', View.canon_unit_zero zero_off2]
  exact congrArg wz (funext fun a => Fin.ext (by match a with | ⟨0, _⟩ => rfl | ⟨1, _⟩ => exact (show 0 + 1 * j.val = j.val by omega)))

/-- Row 1 loaded back after the whole block and then row 0 were stored: still the whole block's row 1. -/
theorem readCov_row0_whole_row1 (v : View sg κ sp S8x128 e)
    (inbz : ∀ a, (![0, 0] : Fin 2 → Nat) a + S8x128.size a ≤ S8x128.size a)
    (inb0 : ∀ a, (![0, 0] : Fin 2 → Nat) a + S1x128.size a ≤ S8x128.size a)
    (inb1 : ∀ a, (![1, 0] : Fin 2 → Nat) a + S1x128.size a ≤ S8x128.size a)
    (w0 : S1x128.Idx → Val e) (wz : S8x128.Idx → Val e) (j : Fin 128) :
    v.readCov [⟨Rect.unit (s := S8x128) ![0, 0] S1x128.size inb0, w0⟩, ⟨Rect.unit ![0, 0] S8x128.size inbz, wz⟩] (Rect.unit (s := S8x128) ![1, 0] S1x128.size inb1).toLoadRect (ix2 0 j) = wz (ix2 1 j) := by
  rw [View.readCov_eq_canon']
  show View.canon _ ((Rect.unit (s := S8x128) ![1, 0] S1x128.size inb1).toLoadRect.idx (ix2 0 j)) = _
  rw [View.canon_cons_of_not_mem _ _ (by
    show _ ∉ (Rect.unit (s := S8x128) ![0, 0] S1x128.size inb0).set
    rw [Rect.mem_set_unit]
    intro hall
    have h := (hall 0).2
    have : ((Rect.unit (s := S8x128) ![1, 0] S1x128.size inb1).toLoadRect.idx (ix2 0 j) 0).val = 1 + 1 * 0 := rfl
    rw [this] at h
    exact absurd h (by decide)), View.canon_unit_zero zero_off2]
  exact congrArg wz (funext fun a => Fin.ext (by match a with | ⟨0, _⟩ => rfl | ⟨1, _⟩ => exact (show 0 + 1 * j.val = j.val by omega)))

end Cov

/-! ## What one point leaves in the two result blocks -/

section Pieces3
variable {F : FTy → Type} [FloatOps F] [Named F]

/-- At the first point the product block holds the stored product of the three input blocks. -/
theorem outA3 (c : Dev nD) (i : grid0.Coords) (arg1 : Memref sig .tc .vmem S200x10000 .f32) (harg1 : arg1.IsWhole) (arg2 : Memref sig .tc .vmem S10000x128 .bf16) (harg2 : arg2.IsWhole) (arg3 : Memref sig .tc .vmem S128x128 .f32) (harg3 : arg3.IsWhole) (arg4 : Memref sig .tc .vmem S200x128 .f32) (harg4 : arg4.IsWhole) (arg5 : Memref sig .tc .vmem S8x128 .f32) (harg5 : arg5.IsWhole) (hc0 : cond0_0 i)
    (x0 : Vec F S200x10000 .f32) (x1 : Vec F S10000x128 .bf16) (x2 : Vec F S128x128 .f32) :
    out0_A_3 c i arg1 harg1 arg2 harg2 arg3 harg3 arg4 harg4 arg5 harg5 hc0 x0 x1 x2 = k0_pay1 x0 x1 x2 := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_unit_zero zero_off2]
  simp only [View.readAt_eq_ld, harg1.read_unread, harg2.read_unread, harg3.read_unread,
    View.ld_unit_zero (S := S200x10000) zero_off2, View.ld_unit_zero (S := S10000x128) zero_off2, View.ld_unit_zero (S := S128x128) zero_off2]

/-- At every later point too. -/
theorem outB3 (c : Dev nD) (i : grid0.Coords) (arg1 : Memref sig .tc .vmem S200x10000 .f32) (harg1 : arg1.IsWhole) (arg2 : Memref sig .tc .vmem S10000x128 .bf16) (harg2 : arg2.IsWhole) (arg3 : Memref sig .tc .vmem S128x128 .f32) (harg3 : arg3.IsWhole) (arg4 : Memref sig .tc .vmem S200x128 .f32) (harg4 : arg4.IsWhole) (arg5 : Memref sig .tc .vmem S8x128 .f32) (harg5 : arg5.IsWhole) (hc0 : ¬cond0_0 i)
    (x0 : Vec F S200x10000 .f32) (x1 : Vec F S10000x128 .bf16) (x2 : Vec F S128x128 .f32) (xo4 : Vec F S8x128 .f32) :
    out0_B_3 c i arg1 harg1 arg2 harg2 arg3 harg3 arg4 harg4 arg5 harg5 hc0 x0 x1 x2 xo4 = k0_pay1 x0 x1 x2 := by
  unfold out0_B_3
  rw [View.read_writes_eq_canon _ _ _ (cover0_B_3 c i arg1 harg1 arg2 harg2 arg3 harg3 arg4 harg4 arg5 harg5 hc0 x0 x1 x2 xo4)]
  unfold kernelRun0_B
  dsimp only
  sl_unfold_words
  rw [View.canon_unit_zero zero_off2]
  simp only [View.readAt_eq_ld, harg1.read_unread, harg2.read_unread, harg3.read_unread,
    View.ld_unit_zero (S := S200x10000) zero_off2, View.ld_unit_zero (S := S10000x128) zero_off2, View.ld_unit_zero (S := S128x128) zero_off2]

end Pieces3

section Pieces4
open Cert.KernelIdeal.Pay

/-- A row loaded from a block, read at column `j`: the block's entry at that row. -/
theorem ld_row0 (X : Vec Ideal S8x128 .f32) (inb0 : ∀ a, (![0, 0] : Fin 2 → Nat) a + S1x128.size a ≤ S8x128.size a) (j : Fin 128) :
    View.ld X (Rect.unit (s := S8x128) ![0, 0] S1x128.size inb0) (ix2 0 j) = X (ix2 0 j) :=
  congrArg X (funext fun a => Fin.ext (by match a with | ⟨0, _⟩ => rfl | ⟨1, _⟩ => exact (show 0 + 1 * j.val = j.val by omega)))
theorem ld_row1 (X : Vec Ideal S8x128 .f32) (inb1 : ∀ a, (![1, 0] : Fin 2 → Nat) a + S1x128.size a ≤ S8x128.size a) (j : Fin 128) :
    View.ld X (Rect.unit (s := S8x128) ![1, 0] S1x128.size inb1) (ix2 0 j) = X (ix2 1 j) :=
  congrArg X (funext fun a => Fin.ext (by match a with | ⟨0, _⟩ => rfl | ⟨1, _⟩ => exact (show 0 + 1 * j.val = j.val by omega)))

/-- The accumulator after a later point: rows 0 and 1 of what the point before left, each plus the block's
    column sums (of the product, of its square); rows 2 to 7 as they were. -/
theorem outB4_apply (c : Dev nD) (i : grid0.Coords) (arg1 : Memref sig .tc .vmem S200x10000 .f32) (harg1 : arg1.IsWhole) (arg2 : Memref sig .tc .vmem S10000x128 .bf16) (harg2 : arg2.IsWhole) (arg3 : Memref sig .tc .vmem S128x128 .f32) (harg3 : arg3.IsWhole) (arg4 : Memref sig .tc .vmem S200x128 .f32) (harg4 : arg4.IsWhole) (arg5 : Memref sig .tc .vmem S8x128 .f32) (harg5 : arg5.IsWhole) (hc0 : ¬cond0_0 i)
    (x0 : Vec Ideal S200x10000 .f32) (x1 : Vec Ideal S10000x128 .bf16) (x2 : Vec Ideal S128x128 .f32) (xo4 : Vec Ideal S8x128 .f32)
    (r : Fin 8) (j : Fin 128) :
    out0_B_4 (F := Ideal) c i arg1 harg1 arg2 harg2 arg3 harg3 arg4 harg4 arg5 harg5 hc0 x0 x1 x2 xo4 (ix2 r j)
      = if r.val = 0 then xo4 (ix2 0 j) + ∑ p : Fin 200, k0_pay1 (F := Ideal) x0 x1 x2 (ix2 p j)
        else if r.val = 1 then xo4 (ix2 1 j) + ∑ p : Fin 200, k0_pay1 (F := Ideal) x0 x1 x2 (ix2 p j) * k0_pay1 (F := Ideal) x0 x1 x2 (ix2 p j)
        else xo4 (ix2 r j) := by
  unfold out0_B_4 kernelRun0_B
  dsimp only
  sl_unfold_words
  simp only [View.readAt_eq_ld, harg1.read_unread, harg2.read_unread, harg3.read_unread, harg5.read_unread,
    View.ld_unit_zero (S := S200x10000) zero_off2, View.ld_unit_zero (S := S10000x128) zero_off2, View.ld_unit_zero (S := S128x128) zero_off2]
  refine (read_rows01 arg5.view (harg5.unread xo4) _ _ _ _ [] r j).trans ?_
  by_cases h0 : r.val = 0
  · rw [if_pos h0, if_pos h0]
    refine (pay3_apply x0 x1 x2 _ j).trans ?_
    rw [ld_row0]
  · rw [if_neg h0, if_neg h0]
    by_cases h1 : r.val = 1
    · rw [if_pos h1, if_pos h1]
      refine (pay4_apply x0 x1 x2 _ j).trans ?_
      rw [ld_row1]
    · rw [if_neg h1, if_neg h1]
      show View.read _ arg5.view (harg5.unread xo4) (ix2 r j) = _
      rw [harg5.read_unread]

/-- The accumulator after the first point: the reset block with rows 0 and 1 updated from it. -/
theorem outA4_apply (c : Dev nD) (i : grid0.Coords) (arg1 : Memref sig .tc .vmem S200x10000 .f32) (harg1 : arg1.IsWhole) (arg2 : Memref sig .tc .vmem S10000x128 .bf16) (harg2 : arg2.IsWhole) (arg3 : Memref sig .tc .vmem S128x128 .f32) (harg3 : arg3.IsWhole) (arg4 : Memref sig .tc .vmem S200x128 .f32) (harg4 : arg4.IsWhole) (arg5 : Memref sig .tc .vmem S8x128 .f32) (harg5 : arg5.IsWhole) (hc0 : cond0_0 i)
    (x0 : Vec Ideal S200x10000 .f32) (x1 : Vec Ideal S10000x128 .bf16) (x2 : Vec Ideal S128x128 .f32)
    (r : Fin 8) (j : Fin 128) :
    out0_A_4 (F := Ideal) c i arg1 harg1 arg2 harg2 arg3 harg3 arg4 harg4 arg5 harg5 hc0 x0 x1 x2 (ix2 r j)
      = if r.val = 0 then ∑ p : Fin 200, k0_pay1 (F := Ideal) x0 x1 x2 (ix2 p j)
        else if r.val = 1 then ∑ p : Fin 200, k0_pay1 (F := Ideal) x0 x1 x2 (ix2 p j) * k0_pay1 (F := Ideal) x0 x1 x2 (ix2 p j)
        else 0 := by
  unfold out0_A_4 kernelRun0_A
  dsimp only
  sl_unfold_words
  simp only [View.readAt_eq_ld, harg1.read_unread, harg2.read_unread, harg3.read_unread,
    View.ld_unit_zero (S := S200x10000) zero_off2, View.ld_unit_zero (S := S10000x128) zero_off2, View.ld_unit_zero (S := S128x128) zero_off2]
  refine (read_rows01 VO0_4 VO0_4.junk _ _ _ _ _ r j).trans ?_
  by_cases h0 : r.val = 0
  · rw [if_pos h0, if_pos h0]
    refine (pay3_apply x0 x1 x2 _ j).trans ?_
    rw [readCov_whole_row0, pay2_apply, zero_add]
  · rw [if_neg h0, if_neg h0]
    by_cases h1 : r.val = 1
    · rw [if_pos h1, if_pos h1]
      refine (pay4_apply x0 x1 x2 _ j).trans ?_
      rw [readCov_row0_whole_row1, pay2_apply, zero_add]
    · rw [if_neg h1, if_neg h1]
      refine (read_whole VO0_4 VO0_4.junk _ _ r j).trans ?_
      exact pay2_apply _

end Pieces4

/-! ## The running column sums, as sums over an initial stretch of the rows -/

section Sums

/-- The sum of `f` over the rows below `200 * (n + 1)`: what `n + 1` blocks of 200 rows contribute. -/
def accRow (f : Fin 10000 → EReal) (n : ℕ) : EReal :=
  ∑ i ∈ Finset.range (200 * (n + 1)), if h : i < 10000 then f ⟨i, h⟩ else 0

/-- The first block alone. -/
theorem accRow_zero (f : Fin 10000 → EReal) :
    accRow f 0 = ∑ p : Fin 200, f ⟨200 * 0 + p.val, by have := p.isLt; omega⟩ := by
  unfold accRow
  rw [← Fin.sum_univ_eq_sum_range (fun x => if h : x < 10000 then f ⟨x, h⟩ else 0) (200 * (0 + 1))]
  refine Finset.sum_congr rfl fun p _ => ?_
  have hp : p.val < 10000 := by have := p.isLt; omega
  rw [dif_pos hp]
  exact congrArg f (Fin.ext (by show p.val = 200 * 0 + p.val; omega))

/-- One more block of 200 rows. -/
theorem accRow_succ (f : Fin 10000 → EReal) (n : ℕ) (hn : n + 1 < 50) :
    accRow f (n + 1) = accRow f n + ∑ p : Fin 200, f ⟨200 * (n + 1) + p.val, by have := p.isLt; omega⟩ := by
  unfold accRow
  rw [show 200 * (n + 1 + 1) = 200 * (n + 1) + 200 by ring, Finset.sum_range_add]
  congr 1
  rw [← Fin.sum_univ_eq_sum_range (fun x => if h : 200 * (n + 1) + x < 10000 then f ⟨200 * (n + 1) + x, h⟩ else 0) 200]
  refine Finset.sum_congr rfl fun p _ => ?_
  have hp : 200 * (n + 1) + p.val < 10000 := by have := p.isLt; omega
  rw [dif_pos hp]

/-- Fifty blocks are all the rows. -/
theorem accRow_last (f : Fin 10000 → EReal) : accRow f 49 = ∑ i : Fin 10000, f i := by
  unfold accRow
  rw [← Fin.sum_univ_eq_sum_range (fun x => if h : x < 10000 then f ⟨x, h⟩ else 0) (200 * (49 + 1))]
  refine Finset.sum_congr rfl fun i _ => ?_
  rw [dif_pos i.isLt]

end Sums

/-! ## The input blocks at a point, as entries of the arrays the region is entered with -/

section Blocks
variable (V : (c : Dev nD) → (b : Ref sig .tc) → Buf (Elt Ideal) ((c : Thread nD τ).loc b))

/-- The adjacency block, the (whole) feature array and the (whole) weight array at point `t`. -/
abbrev ablk (c : Dev nD) (t : Fin cfg0.N) : Vec Ideal S200x10000 .f32 := iblk0 V c 0 t
abbrev sblk (c : Dev nD) (t : Fin cfg0.N) : Vec Ideal S10000x128 .bf16 := iblk0 V c 1 t
abbrev wblk (c : Dev nD) (t : Fin cfg0.N) : Vec Ideal S128x128 .f32 := iblk0 V c 2 t

/-- The index maps, decided over the grid: the adjacency and the product move down one block of rows per point,
    the other windows stay at block (0, 0). -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

theorem point_lt (t : Fin cfg0.N) : t.val < 50 := lt_of_lt_of_eq t.isLt (show cfg0.N = 50 from N_0)

/-- Row `p` of the adjacency block at point `t` is row `200 t + p` of the adjacency. -/
theorem ablk_apply (c : Dev nD) (t : Fin cfg0.N) (p : Fin 200) (l : Fin 10000) :
    ablk V c t (ix2 p l) = (V c main_arg2 : S10000x10000.Idx → EReal) (ix2 ⟨200 * t.val + p.val, by have := point_lt t; have := p.isLt; omega⟩ l) := by
  obtain ⟨e0, e1, -⟩ := index_maps0 t
  unfold ablk iblk0
  rw [View.read_apply]
  show (V c main_arg2 : S10000x10000.Idx → EReal) _ = (V c main_arg2 : S10000x10000.Idx → EReal) _
  congr 1
  funext a
  apply Fin.ext
  match a with
  | ⟨0, _⟩ => show win0_0.index t (0 : Fin 2) * 200 + 1 * p.val = 200 * t.val + p.val; rw [e0]; omega
  | ⟨1, _⟩ => show win0_0.index t (1 : Fin 2) * 10000 + 1 * l.val = l.val; rw [e1]; omega

/-- The feature block is the whole feature array. -/
theorem sblk_apply (c : Dev nD) (t : Fin cfg0.N) (l : Fin 10000) (k : Fin 128) :
    sblk V c t (ix2 l k) = (V c main_call0_v10 : S10000x128.Idx → EReal) (ix2 l k) := by
  obtain ⟨-, -, e0, e1, -⟩ := index_maps0 t
  unfold sblk iblk0
  rw [View.read_apply]
  show (V c main_call0_v10 : S10000x128.Idx → EReal) _ = (V c main_call0_v10 : S10000x128.Idx → EReal) _
  congr 1
  funext a
  apply Fin.ext
  match a with
  | ⟨0, _⟩ => show win0_1.index t (0 : Fin 2) * 10000 + 1 * l.val = l.val; rw [e0]; omega
  | ⟨1, _⟩ => show win0_1.index t (1 : Fin 2) * 128 + 1 * k.val = k.val; rw [e1]; omega

/-- The weight block is the whole weight array. -/
theorem wblk_apply (c : Dev nD) (t : Fin cfg0.N) (k : Fin 128) (j : Fin 128) :
    wblk V c t (ix2 k j) = (V c main_call0_v0 : S128x128.Idx → EReal) (ix2 k j) := by
  obtain ⟨-, -, -, -, e0, e1, -⟩ := index_maps0 t
  unfold wblk iblk0
  rw [View.read_apply]
  show (V c main_call0_v0 : S128x128.Idx → EReal) _ = (V c main_call0_v0 : S128x128.Idx → EReal) _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * j.val = j.val; rw [e1]; omega

/-- The product of the three arrays the region is entered with. -/
abbrev hfun (c : Dev nD) : Fin 10000 → Fin 128 → EReal :=
  hK (fn2 (n := 10000) (k := 10000) (V c main_arg2)) (fn2 (n := 10000) (k := 128) (V c main_call0_v10))
    (fn2 (n := 128) (k := 128) (V c main_call0_v0))

open Cert.KernelIdeal.Pay in
/-- The product block stored at point `t` is rows `200 t … 200 t + 199` of that product. -/
theorem pay1_blk (c : Dev nD) (t : Fin cfg0.N) (p : Fin 200) (j : Fin 128) :
    k0_pay1 (F := Ideal) (ablk V c t) (sblk V c t) (wblk V c t) (ix2 p j)
      = hfun V c ⟨200 * t.val + p.val, by have := point_lt t; have := p.isLt; omega⟩ j := by
  refine (pay1_apply (ablk V c t) (sblk V c t) (wblk V c t) p j).trans ?_
  unfold hfun hK
  refine Finset.sum_congr rfl fun k _ => ?_
  rw [wblk_apply]
  refine congrArg (· * _) ?_
  refine Finset.sum_congr rfl fun l _ => ?_
  rw [ablk_apply, sblk_apply]
  rfl

end Blocks

/-! ## What the two outputs hold after each point, and the arrays after the last -/

section Final
variable (V : (c : Dev nD) → (b : Ref sig .tc) → Buf (Elt Ideal) ((c : Thread nD τ).loc b))

/-- After every point the product block holds the product of that point's three input blocks. -/
theorem out3_eq (c : Dev nD) (t : Fin cfg0.N) :
    (outsAt0 (F := Ideal) V c t.val t.isLt).1 = k0_pay1 (F := Ideal) (ablk V c t) (sblk V c t) (wblk V c t) := by
  by_cases h0 : t.val % 50 = 0
  · rw [outsAt0_A V c t h0]
    dsimp only
    exact outA3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (ablk V c t) (sblk V c t) (wblk V c t)
  · rw [outsAt0_B V c t h0]
    dsimp only
    exact outB3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (ablk V c t) (sblk V c t) (wblk V c t)
      (outsAt0 V c (t.val - 1) (Nat.lt_of_le_of_lt (Nat.sub_le _ _) t.isLt)).2

/-- After point `n` the accumulator holds, in row 0, the column sums of the product over the rows below
    `200 (n + 1)`; in row 1 the same sums of its square; zero below. By induction on the point: the first point
    starts from the reset block, every later one adds its block's sums to what the point before left. -/
theorem acc_inv (c : Dev nD) : ∀ (n : ℕ) (hn : n < cfg0.N) (r : Fin 8) (j : Fin 128),
    ((outsAt0 (F := Ideal) V c n hn).2 : Vec Ideal S8x128 .f32) (ix2 r j)
      = if r.val = 0 then accRow (fun i => hfun V c i j) n
        else if r.val = 1 then accRow (fun i => hfun V c i j * hfun V c i j) n else 0
  | 0, hn, r, j => by
    rw [outsAt0_A V c ⟨0, hn⟩ rfl]
    dsimp only
    refine (outA4_apply c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr rfl)
      (ablk V c ⟨0, hn⟩) (sblk V c ⟨0, hn⟩) (wblk V c ⟨0, hn⟩) r j).trans ?_
    rw [accRow_zero, accRow_zero]
    simp only [pay1_blk]
  | n + 1, hn, r, j => by
    have hN : cfg0.N = 50 := N_0
    have hB : ¬(⟨n + 1, hn⟩ : Fin cfg0.N).val % 50 = 0 := by dsimp only; omega
    rw [outsAt0_B V c ⟨n + 1, hn⟩ hB]
    dsimp only
    refine (outB4_apply c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => hB ((hcond0_0 ⟨n + 1, hn⟩).mp h))
      (ablk V c ⟨n + 1, hn⟩) (sblk V c ⟨n + 1, hn⟩) (wblk V c ⟨n + 1, hn⟩)
      (outsAt0 V c n (Nat.lt_of_succ_lt hn)).2 r j).trans ?_
    by_cases h0 : r.val = 0
    · rw [if_pos h0, if_pos h0, acc_inv c n (Nat.lt_of_succ_lt hn) 0 j, if_pos (show ((0 : Fin 8) : ℕ) = 0 from rfl),
        accRow_succ _ n (by omega)]
      refine congrArg (_ + ·) (Finset.sum_congr rfl fun p _ => ?_)
      exact pay1_blk V c ⟨n + 1, hn⟩ p j
    · rw [if_neg h0, if_neg h0]
      by_cases h1 : r.val = 1
      · rw [if_pos h1, if_pos h1, acc_inv c n (Nat.lt_of_succ_lt hn) 1 j, if_neg (show ¬((1 : Fin 8) : ℕ) = 0 by decide),
          if_pos (show ((1 : Fin 8) : ℕ) = 1 from rfl), accRow_succ _ n (by omega)]
        refine congrArg (_ + ·) (Finset.sum_congr rfl fun p _ => ?_)
        exact congrArg (fun x => x * x) (pay1_blk V c ⟨n + 1, hn⟩ p j)
      · rw [if_neg h1, if_neg h1, acc_inv c n (Nat.lt_of_succ_lt hn) r j, if_neg h0, if_neg h1]

/-- What point `t` writes back of the product is block `t` of the whole product array. -/
theorem flushed3_eq (c : Dev nD) (t : Fin cfg0.N) :
    (dat0 (F := Ideal) V c).flushed 3 t = ((cfg0.win 3).blk t).view.read (Elt Ideal) (arr2 (hfun V c)) := by
  show (cfg0.win 3).cut (grid0.coords t) ((dat0 (F := Ideal) V c).after 3 t) = _
  rw [after0_3, out3_eq V c t]
  funext y
  obtain ⟨p, j, rfl⟩ : ∃ (p : Fin 200) (j : Fin 128), y = ix2 p j := ⟨y 0, y 1, eq_ix2 y⟩
  rw [View.read_apply]
  show k0_pay1 (F := Ideal) (ablk V c t) (sblk V c t) (wblk V c t) (ix2 p j)
    = hfun V c ((((cfg0.win 3).blk t).view.emb (ix2 p j)) 0) ((((cfg0.win 3).blk t).view.emb (ix2 p j)) 1)
  rw [pay1_blk]
  obtain ⟨-, -, -, -, -, -, e0, e1, -⟩ := index_maps0 t
  refine congrArg₂ (hfun V c) (Fin.ext ?_) (Fin.ext ?_)
  · show 200 * t.val + p.val = win0_3.index t (0 : Fin 2) * 200 + 1 * p.val
    rw [e0]; omega
  · show j.val = win0_3.index t (1 : Fin 2) * 128 + 1 * j.val
    rw [e1]; omega

/-- The one write-back of the accumulator, after the last point, writes the column sums over all the rows. -/
theorem flushed4_eq (c : Dev nD) (t : Fin cfg0.N) (hf : (cfg0.win 4).flush t = true) :
    (dat0 (F := Ideal) V c).flushed 4 t = ((cfg0.win 4).blk t).view.read (Elt Ideal) (arr2 (statsK (hfun V c))) := by
  have h49 : t.val = 49 := by have := (flush0_4 t).mp hf; have := point_lt t; omega
  show (cfg0.win 4).cut (grid0.coords t) ((dat0 (F := Ideal) V c).after 4 t) = _
  rw [after0_4]
  funext y
  obtain ⟨r, j, rfl⟩ : ∃ (r : Fin 8) (j : Fin 128), y = ix2 r j := ⟨y 0, y 1, eq_ix2 y⟩
  rw [View.read_apply]
  show ((outsAt0 (F := Ideal) V c t.val t.isLt).2 : Vec Ideal S8x128 .f32) (ix2 r j)
    = statsK (hfun V c) ((((cfg0.win 4).blk t).view.emb (ix2 r j)) 0) ((((cfg0.win 4).blk t).view.emb (ix2 r j)) 1)
  rw [acc_inv V c t.val t.isLt r j, h49, accRow_last, accRow_last]
  obtain ⟨-, -, -, -, -, -, -, -, e0, e1⟩ := index_maps0 t
  have er : r = (((cfg0.win 4).blk t).view.emb (ix2 r j)) 0 := Fin.ext (by
    show r.val = win0_4.index t (0 : Fin 2) * 8 + 1 * r.val
    rw [e0]; omega)
  have ej : j = (((cfg0.win 4).blk t).view.emb (ix2 r j)) 1 := Fin.ext (by
    show j.val = win0_4.index t (1 : Fin 2) * 128 + 1 * j.val
    rw [e1]; omega)
  exact congrArg₂ (statsK (hfun V c)) er ej

end Final

section Last
variable (V : (c : Dev nD) → (b : Ref sig .tc) → Buf (Elt Ideal) ((c : Thread nD τ).loc b))

/-- The first region's product array after its fifty points, from the arrays the region is entered with:
    row `i` lies in the block of point `i / 200`, and every point writes its block back. -/
theorem final0_h (c : Dev nD) :
    (dat0 (F := Ideal) V c).arrAt 3 cfg0.N
      = arr2 (hK (fn2 (n := 10000) (k := 10000) (V c main_arg2)) (fn2 (n := 10000) (k := 128) (V c main_call0_v10))
          (fn2 (n := 128) (k := 128) (V c main_call0_v0))) :=
  (dat0 (F := Ideal) V c).arrAt_eq_of_cover 3 (arr2 (hfun V c)) (fun t _ => flushed3_eq V c t) fun i => by
    have hi0 : (i 0 : ℕ) < 10000 := (i 0).isLt
    have hi1 : (i 1 : ℕ) < 128 := (i 1).isLt
    have ht : (i 0 : ℕ) / 200 < cfg0.N := by rw [show cfg0.N = 50 from N_0]; omega
    refine ⟨⟨(i 0 : ℕ) / 200, ht⟩, flush0_3 _, ?_⟩
    obtain ⟨-, -, -, -, -, -, e0, e1, -⟩ := index_maps0 ⟨(i 0 : ℕ) / 200, ht⟩
    show i ∈ ((View.whole main_call0_v11_0).slice (win0_3.rect ⟨(i 0 : ℕ) / 200, ht⟩)).set
    rw [View.set_slice_whole, Rect.mem_set_unit]
    intro a
    match a with
    | ⟨0, _⟩ =>
      show win0_3.index ⟨(i 0 : ℕ) / 200, ht⟩ (0 : Fin 2) * 200 ≤ (i 0 : ℕ)
        ∧ (i 0 : ℕ) < win0_3.index ⟨(i 0 : ℕ) / 200, ht⟩ (0 : Fin 2) * 200 + 200
      rw [e0]; dsimp only; omega
    | ⟨1, _⟩ =>
      show win0_3.index ⟨(i 0 : ℕ) / 200, ht⟩ (1 : Fin 2) * 128 ≤ (i 1 : ℕ)
        ∧ (i 1 : ℕ) < win0_3.index ⟨(i 0 : ℕ) / 200, ht⟩ (1 : Fin 2) * 128 + 128
      rw [e1]; omega

/-- The first region's accumulator after its fifty points: the column sums of the product and of its square.
    Its one block is the whole array, written back after the last point. -/
theorem final0_st (c : Dev nD) :
    (dat0 (F := Ideal) V c).arrAt 4 cfg0.N
      = arr2 (statsK (hK (fn2 (n := 10000) (k := 10000) (V c main_arg2)) (fn2 (n := 10000) (k := 128) (V c main_call0_v10))
          (fn2 (n := 128) (k := 128) (V c main_call0_v0)))) :=
  (dat0 (F := Ideal) V c).arrAt_eq_of_cover 4 (arr2 (statsK (hfun V c))) (flushed4_eq V c) fun i => by
    have hi0 : (i 0 : ℕ) < 8 := (i 0).isLt
    have hi1 : (i 1 : ℕ) < 128 := (i 1).isLt
    have ht : 49 < cfg0.N := by rw [show cfg0.N = 50 from N_0]; omega
    refine ⟨⟨49, ht⟩, (flush0_4 _).mpr rfl, ?_⟩
    obtain ⟨-, -, -, -, -, -, -, -, e0, e1⟩ := index_maps0 ⟨49, ht⟩
    show i ∈ ((View.whole main_call0_v11_1).slice (win0_4.rect ⟨49, ht⟩)).set
    rw [View.set_slice_whole, Rect.mem_set_unit]
    intro a
    match a with
    | ⟨0, _⟩ =>
      show win0_4.index ⟨49, ht⟩ (0 : Fin 2) * 8 ≤ (i 0 : ℕ) ∧ (i 0 : ℕ) < win0_4.index ⟨49, ht⟩ (0 : Fin 2) * 8 + 8
      rw [e0]; omega
    | ⟨1, _⟩ =>
      show win0_4.index ⟨49, ht⟩ (1 : Fin 2) * 128 ≤ (i 1 : ℕ) ∧ (i 1 : ℕ) < win0_4.index ⟨49, ht⟩ (1 : Fin 2) * 128 + 128
      rw [e1]; omega

end Last

end Cert.KernelIdeal.Reg0

end
-- ==== Proof.KReg1.lean ====
import proofs.«141231_g61323543053001_cont_9to1c4b_809_8_alg».proof.Proof.Gen.KernelIdeal.Frame
import proofs.«141231_g61323543053001_cont_9to1c4b_809_8_alg».proof.Proof.Spec
import proofs.«141231_g61323543053001_cont_9to1c4b_809_8_alg».proof.Proof.LibRowOps
import proofs.«141231_g61323543053001_cont_9to1c4b_809_8_alg».proof.Proof.KPay

set_option maxRecDepth 16384

noncomputable section

namespace Cert.KernelIdeal.Reg1

open Cert.KernelIdeal Cert.KernelIdeal.Gen Cert.Spec
open Cert.KernelIdeal.Facts₀ Cert.KernelIdeal.Facts
open Idealize.ShloMosaic Idealize.ShloMosaic.TcCoe Idealize.ShloMosaic.ValueIdx
open scoped BigOperators

variable (V : (c : Dev nD) → (b : Ref sig .tc) → Buf (Elt Ideal) ((c : Thread nD τ).loc b))

/-! ## Where each window's block sits

The grid has ten points. On the row axis the blocks of h, of seq_self and of the output step with the point, 1000 rows
at a time; the two weight arrays, the accumulator and the parameter block are one block each, the same at every point. -/

/-- The zero offsets of a rectangle that spans its whole buffer, however the zeros are written. -/
theorem zero_offsets : (![0, 0] : Fin 2 → Nat) = fun _ => 0 := funext fun a => by fin_cases a <;> rfl

/-- The block index of each window on each axis at point `t`, and the bound on `t`: a finite check over the ten points. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ t.val < 10 :=
  (by decide +kernel : ∀ t : Fin grid1.N, _)

/-! ## The input blocks as entries of their arrays

An entry of a block sits in its array, on each axis, at the block index times the block's size plus the coordinate
inside the block. -/

/-- Row `p` of the h block at point `t` is row `1000 t + p` of h. -/
theorem hblock_apply (c : Dev nD) (t : Fin cfg1.N) (p : Fin 1000) (k : Fin 128) (i : Fin 10000)
    (hi : i.val = 1000 * t.val + p.val) :
    (iblk1 (F := Ideal) V c 0 t : Vec Ideal S1000x128 .f32) (ix2 p k)
      = (V c main_call0_v11_0 : S10000x128.Idx → EReal) (ix2 i k) := by
  obtain ⟨e0, e1, -⟩ := block_indices t
  show V c main_call0_v11_0 (((cfg1.win 0).blk t).view.emb (ix2 p k)) = _
  refine congrArg _ ?_
  funext a
  apply Fin.ext
  match a with
  | ⟨0, _⟩ => show win1_0.index t (0 : Fin 2) * 1000 + 1 * p.val = i.val; omega
  | ⟨1, _⟩ => show win1_0.index t (1 : Fin 2) * 128 + 1 * k.val = k.val; omega

/-- Row `p` of the seq_self block at point `t` is row `1000 t + p` of seq_self. -/
theorem selfblock_apply (c : Dev nD) (t : Fin cfg1.N) (p : Fin 1000) (k : Fin 128) (i : Fin 10000)
    (hi : i.val = 1000 * t.val + p.val) :
    (iblk1 (F := Ideal) V c 1 t : Vec Ideal S1000x128 .f32) (ix2 p k)
      = (V c main_arg0 : S10000x128.Idx → EReal) (ix2 i k) := by
  obtain ⟨-, -, e0, e1, -⟩ := block_indices t
  show V c main_arg0 (((cfg1.win 1).blk t).view.emb (ix2 p k)) = _
  refine congrArg _ ?_
  funext a
  apply Fin.ext
  match a with
  | ⟨0, _⟩ => show win1_1.index t (0 : Fin 2) * 1000 + 1 * p.val = i.val; omega
  | ⟨1, _⟩ => show win1_1.index t (1 : Fin 2) * 128 + 1 * k.val = k.val; omega

/-- The block of the weight that meets seq_self is the whole array, at every point. -/
theorem wablock_apply (c : Dev nD) (t : Fin cfg1.N) (a b : Fin 128) :
    (iblk1 (F := Ideal) V c 2 t : Vec Ideal S128x128 .f32) (ix2 a b)
      = (V c main_call0_v2 : S128x128.Idx → EReal) (ix2 a b) := by
  obtain ⟨-, -, -, -, e0, e1, -⟩ := block_indices t
  show V c main_call0_v2 (((cfg1.win 2).blk t).view.emb (ix2 a b)) = _
  refine congrArg _ ?_
  funext x
  apply Fin.ext
  match x with
  | ⟨0, _⟩ => show win1_2.index t (0 : Fin 2) * 128 + 1 * a.val = a.val; omega
  | ⟨1, _⟩ => show win1_2.index t (1 : Fin 2) * 128 + 1 * b.val = b.val; omega

/-- The block of the weight that meets the normalised part is the whole array, at every point. -/
theorem wbblock_apply (c : Dev nD) (t : Fin cfg1.N) (a b : Fin 128) :
    (iblk1 (F := Ideal) V c 3 t : Vec Ideal S128x128 .f32) (ix2 a b)
      = (V c main_call0_v4 : S128x128.Idx → EReal) (ix2 a b) := by
  obtain ⟨-, -, -, -, -, -, e0, e1, -⟩ := block_indices t
  show V c main_call0_v4 (((cfg1.win 3).blk t).view.emb (ix2 a b)) = _
  refine congrArg _ ?_
  funext x
  apply Fin.ext
  match x with
  | ⟨0, _⟩ => show win1_3.index t (0 : Fin 2) * 128 + 1 * a.val = a.val; omega
  | ⟨1, _⟩ => show win1_3.index t (1 : Fin 2) * 128 + 1 * b.val = b.val; omega

/-- The accumulator's block is the whole [8, 128] array, at every point. -/
theorem statsblock_apply (c : Dev nD) (t : Fin cfg1.N) (r : Fin 8) (k : Fin 128) :
    (iblk1 (F := Ideal) V c 4 t : Vec Ideal S8x128 .f32) (ix2 r k)
      = (V c main_call0_v11_1 : S8x128.Idx → EReal) (ix2 r k) := by
  obtain ⟨-, -, -, -, -, -, -, -, e0, e1, -⟩ := block_indices t
  show V c main_call0_v11_1 (((cfg1.win 4).blk t).view.emb (ix2 r k)) = _
  refine congrArg _ ?_
  funext x
  apply Fin.ext
  match x with
  | ⟨0, _⟩ => show win1_4.index t (0 : Fin 2) * 8 + 1 * r.val = r.val; omega
  | ⟨1, _⟩ => show win1_4.index t (1 : Fin 2) * 128 + 1 * k.val = k.val; omega

/-- The parameter block is the whole [8, 128] array, at every point. -/
theorem paramblock_apply (c : Dev nD) (t : Fin cfg1.N) (r : Fin 8) (k : Fin 128) :
    (iblk1 (F := Ideal) V c 5 t : Vec Ideal S8x128 .f32) (ix2 r k)
      = (V c main_call0_v9 : S8x128.Idx → EReal) (ix2 r k) := by
  obtain ⟨-, -, -, -, -, -, -, -, -, -, e0, e1, -⟩ := block_indices t
  show V c main_call0_v9 (((cfg1.win 5).blk t).view.emb (ix2 r k)) = _
  refine congrArg _ ?_
  funext x
  apply Fin.ext
  match x with
  | ⟨0, _⟩ => show win1_5.index t (0 : Fin 2) * 8 + 1 * r.val = r.val; omega
  | ⟨1, _⟩ => show win1_5.index t (1 : Fin 2) * 128 + 1 * k.val = k.val; omega

/-! ## One stored entry

The body stores one [1000, 128] block. Its entry at `(p, q)` is `outRow` of what the body loads: rows 0 and 1 of the
accumulator and of the parameter block through one-row rectangles, the other four blocks whole. -/

/-- The one-row rectangle at row 0 of an [8, 128] block reads that block's row 0. -/
theorem load_row0 (x : Vec Ideal S8x128 .f32) (k : Fin 128) : View.ld x r1_0 (ix2 0 k) = x (ix2 0 k) := by
  show x (r1_0.idx (ix2 0 k)) = _
  refine congrArg x ?_
  funext a
  apply Fin.ext
  match a with
  | ⟨0, _⟩ => rfl
  | ⟨1, _⟩ => show 0 + 1 * k.val = k.val; omega

/-- The one-row rectangle at row 1 of an [8, 128] block reads that block's row 1. -/
theorem load_row1 (x : Vec Ideal S8x128 .f32) (k : Fin 128) : View.ld x r1_1 (ix2 0 k) = x (ix2 1 k) := by
  show x (r1_1.idx (ix2 0 k)) = _
  refine congrArg x ?_
  funext a
  apply Fin.ext
  match a with
  | ⟨0, _⟩ => rfl
  | ⟨1, _⟩ => show 0 + 1 * k.val = k.val; omega

/-- The stored block at `(p, q)`, over any six blocks: when row `p` of the first two is row `i` of `H` and of `Sf` and
    the other four are `wa`, `wb`, `st`, `gb` entry by entry, it is the second region's result at `(i, q)`. The single store
    spans the buffer, so what is left is its payload; the payload is `outRow` of the loaded rows; the loads read the
    blocks' own entries; and `outK1` at `(i, q)` is by definition `outRow` of those rows. -/
theorem stored_entry (x0 x1 : Vec Ideal S1000x128 .f32) (x2 x3 : Vec Ideal S128x128 .f32) (x4 x5 : Vec Ideal S8x128 .f32)
    (H Sf : Fin 10000 → Fin 128 → EReal) (wa wb : Fin 128 → Fin 128 → EReal) (st gb : Fin 8 → Fin 128 → EReal)
    (i : Fin 10000) (p : Fin 1000) (q : Fin 128)
    (h0 : ∀ k, x0 (ix2 p k) = H i k) (h1 : ∀ k, x1 (ix2 p k) = Sf i k)
    (h2 : ∀ a b, x2 (ix2 a b) = wa a b) (h3 : ∀ a b, x3 (ix2 a b) = wb a b)
    (h4 : ∀ r k, x4 (ix2 r k) = st r k) (h5 : ∀ r k, x5 (ix2 r k) = gb r k) :
    out1_6 (F := Ideal) x0 x1 x2 x3 x4 x5 (ix2 p q) = outK1 H Sf wa wb st gb i q := by
  unfold out1_6
  rw [View.canon_unit_zero zero_offsets]
  refine (Pay.pay_bn_apply _ _ _ _ _ _ _ _ p q).trans ?_
  have a0 : (fun k => View.ld x4 r1_0 (ix2 0 k)) = st 0 := funext fun k => (load_row0 x4 k).trans (h4 0 k)
  have a1 : (fun k => View.ld x4 r1_1 (ix2 0 k)) = st 1 := funext fun k => (load_row1 x4 k).trans (h4 1 k)
  have a2 : (fun k => View.ld x5 r1_0 (ix2 0 k)) = gb 0 := funext fun k => (load_row0 x5 k).trans (h5 0 k)
  have a3 : (fun k => View.ld x5 r1_1 (ix2 0 k)) = gb 1 := funext fun k => (load_row1 x5 k).trans (h5 1 k)
  have a4 : (fun k => View.ld x0 r1_2 (ix2 p k)) = H i :=
    funext fun k => (congrFun (View.ld_unit_zero (S := S1000x128) zero_offsets _ x0) (ix2 p k)).trans (h0 k)
  have a5 : (fun k => View.ld x1 r1_2 (ix2 p k)) = Sf i :=
    funext fun k => (congrFun (View.ld_unit_zero (S := S1000x128) zero_offsets _ x1) (ix2 p k)).trans (h1 k)
  have a6 : fn2 (n := 128) (k := 128) (View.ld x2 r1_3) = wa :=
    funext fun a => funext fun b => (congrFun (View.ld_unit_zero (S := S128x128) zero_offsets _ x2) (ix2 a b)).trans (h2 a b)
  have a7 : fn2 (n := 128) (k := 128) (View.ld x3 r1_3) = wb :=
    funext fun a => funext fun b => (congrFun (View.ld_unit_zero (S := S128x128) zero_offsets _ x3) (ix2 a b)).trans (h3 a b)
  rw [a0, a1, a2, a3, a4, a5, a6, a7]
  rfl

/-! ## From the ten blocks to the array -/

/-- The second region's result as an array, from the arrays the region is entered with. -/
abbrev outArr (c : Dev nD) : S10000x128.Idx → EReal :=
  arr2 (outK1 (fn2 (n := 10000) (k := 128) (V c main_call0_v11_0)) (fn2 (n := 10000) (k := 128) (V c main_arg0))
    (fn2 (n := 128) (k := 128) (V c main_call0_v2)) (fn2 (n := 128) (k := 128) (V c main_call0_v4))
    (fn2 (n := 8) (k := 128) (V c main_call0_v11_1)) (fn2 (n := 8) (k := 128) (V c main_call0_v9)))

/-- What point `t` writes back is rows `1000 t … 1000 t + 999` of that array: entry `(p, q)` of the stored block is the
    result at `(1000 t + p, q)`, which is where the output's block puts it. -/
theorem written_back (c : Dev nD) (t : Fin cfg1.N) :
    (dat1 (F := Ideal) V c).flushed 6 t = ((cfg1.win 6).blk t).view.read (Elt Ideal) (outArr V c) := by
  show (cfg1.win 6).cut (grid1.coords t) ((dat1 (F := Ideal) V c).after 6 t) = _
  rw [after1_6]
  funext y
  obtain ⟨p, q, rfl⟩ : ∃ (p : Fin 1000) (q : Fin 128), y = ix2 p q := ⟨y 0, y 1, eq_ix2 y⟩
  obtain ⟨-, -, -, -, -, -, -, -, -, -, -, -, e0, e1, hN⟩ := block_indices t
  have hi : 1000 * t.val + p.val < 10000 := by have := p.isLt; omega
  have hemb : ((cfg1.win 6).blk t).view.emb (ix2 p q) = (ix2 ⟨1000 * t.val + p.val, hi⟩ q : S10000x128.Idx) := by
    funext a
    apply Fin.ext
    match a with
    | ⟨0, _⟩ => show win1_6.index t (0 : Fin 2) * 1000 + 1 * p.val = 1000 * t.val + p.val; omega
    | ⟨1, _⟩ => show win1_6.index t (1 : Fin 2) * 128 + 1 * q.val = q.val; omega
  show out1_6 (F := Ideal) (iblk1 V c 0 t) (iblk1 V c 1 t) (iblk1 V c 2 t) (iblk1 V c 3 t) (iblk1 V c 4 t) (iblk1 V c 5 t) (ix2 p q)
    = outArr V c (((cfg1.win 6).blk t).view.emb (ix2 p q))
  refine (stored_entry (iblk1 V c 0 t) (iblk1 V c 1 t) (iblk1 V c 2 t) (iblk1 V c 3 t) (iblk1 V c 4 t) (iblk1 V c 5 t)
    (fn2 (n := 10000) (k := 128) (V c main_call0_v11_0)) (fn2 (n := 10000) (k := 128) (V c main_arg0))
    (fn2 (n := 128) (k := 128) (V c main_call0_v2)) (fn2 (n := 128) (k := 128) (V c main_call0_v4))
    (fn2 (n := 8) (k := 128) (V c main_call0_v11_1)) (fn2 (n := 8) (k := 128) (V c main_call0_v9))
    ⟨1000 * t.val + p.val, hi⟩ p q
    (fun k => hblock_apply V c t p k ⟨1000 * t.val + p.val, hi⟩ rfl) (fun k => selfblock_apply V c t p k ⟨1000 * t.val + p.val, hi⟩ rfl)
    (wablock_apply V c t) (wbblock_apply V c t) (statsblock_apply V c t) (paramblock_apply V c t)).trans ?_
  exact congrArg (outArr V c) hemb.symm

/-- An index of the array is in point `t`'s block iff each coordinate is in the block's range on its axis. -/
theorem mem_block (t : Fin cfg1.N) (i : S10000x128.Idx) :
    i ∈ ((cfg1.win 6).blk t).view.set ↔ ∀ a : Fin 2, win1_6.index t a * S1000x128.size a ≤ (i a).val ∧ (i a).val < win1_6.index t a * S1000x128.size a + S1000x128.size a := by
  show i ∈ ((View.whole main_v0).slice (win1_6.rect t)).set ↔ _
  rw [View.set_slice_whole, Rect.mem_set_unit]
  exact Iff.rfl

/-- Row `r` of the array is in the block of point `r / 1000`, and every point writes its block back: the ten blocks
    cover the array. -/
theorem rows_covered (i : S10000x128.Idx) :
    ∃ t : Fin cfg1.N, (cfg1.win 6).flush t = true ∧ i ∈ ((cfg1.win 6).blk t).view.set := by
  have hi0 : (i 0).val < 10000 := (i 0).isLt
  have hi1 : (i 1).val < 128 := (i 1).isLt
  have hN : cfg1.N = 10 := N_1
  obtain ⟨t, ht⟩ : ∃ t : Fin cfg1.N, t.val = (i 0).val / 1000 := ⟨⟨(i 0).val / 1000, by rw [hN]; omega⟩, rfl⟩
  refine ⟨t, flush1_6 t, ?_⟩
  obtain ⟨-, -, -, -, -, -, -, -, -, -, -, -, e0, e1, -⟩ := block_indices t
  rw [mem_block]
  intro a
  match a with
  | ⟨0, _⟩ => show win1_6.index t (0 : Fin 2) * 1000 ≤ (i 0).val ∧ (i 0).val < win1_6.index t (0 : Fin 2) * 1000 + 1000; omega
  | ⟨1, _⟩ => show win1_6.index t (1 : Fin 2) * 128 ≤ (i 1).val ∧ (i 1).val < win1_6.index t (1 : Fin 2) * 128 + 128; omega

/-- The second region's output array after its ten points, from the arrays the region is entered with. -/
theorem final1 (c : Dev nD) :
    (dat1 (F := Ideal) V c).arrAt 6 cfg1.N
      = arr2 (outK1 (fn2 (n := 10000) (k := 128) (V c main_call0_v11_0)) (fn2 (n := 10000) (k := 128) (V c main_arg0))
          (fn2 (n := 128) (k := 128) (V c main_call0_v2)) (fn2 (n := 128) (k := 128) (V c main_call0_v4))
          (fn2 (n := 8) (k := 128) (V c main_call0_v11_1)) (fn2 (n := 8) (k := 128) (V c main_call0_v9))) := by
  exact (dat1 (F := Ideal) V c).arrAt_eq_of_cover 6 (outArr V c) (fun t _ => written_back V c t) rows_covered

end Cert.KernelIdeal.Reg1

end
-- ==== Proof.KHost.lean ====
import proofs.«141231_g61323543053001_cont_9to1c4b_809_8_alg».proof.Proof.Gen.KernelIdeal.Frame
import proofs.«141231_g61323543053001_cont_9to1c4b_809_8_alg».proof.Proof.Spec
import proofs.«141231_g61323543053001_cont_9to1c4b_809_8_alg».proof.Proof.LibRowOps
import Idealize.ShloMosaic.Lib.ValueLayout
import Idealize.ShloMosaic.Lib.IdealHost

set_option maxRecDepth 16384

noncomputable section

namespace Cert.KernelIdeal.HostVal

open Cert.KernelIdeal Cert.KernelIdeal.Gen Cert.Spec
open Idealize.ShloMosaic Idealize.ShloMosaic.TcCoe Idealize.ShloMosaic.ValueIdx
open scoped BigOperators

/-! ## The buffers as terms of the launch contents

Each buffer the regions read is the composite of the operations that lead to it, applied to the arguments as launched. -/

section Terms
variable (m : (ℓ : Loc nD τ sig) → Buf (Elt Ideal) ℓ) (ρ : Dev nD → PrngReg)

/-- The transposed W1. -/
theorem term_w1t (c : Dev nD) : (V1 m ρ c main_call0_v0 : S128x128.Idx → EReal)
    = transpose S128x128 [1, 0] (m ((c : Thread nD τ).loc main_arg3)) Facts₀.transposes_S128x128_S128x128_1_0 := by
  dsimp only [V1, W1, W0, hostOps0]; after_results; rfl

/-- The transposed columns 0 to 127 of W2. -/
theorem term_w2a (c : Dev nD) : (V1 m ρ c main_call0_v2 : S128x128.Idx → EReal)
    = transpose S128x128 [1, 0]
        (extractStridedSlice S128x128 ![0, 0] (m ((c : Thread nD τ).loc main_arg4)) Facts₀.slices_S128x256_S128x128_0_0)
        Facts₀.transposes_S128x128_S128x128_1_0 := by
  dsimp only [V1, W1, W0, hostOps0]; after_results; rfl

/-- The transposed columns 128 to 255 of W2. -/
theorem term_w2b (c : Dev nD) : (V1 m ρ c main_call0_v4 : S128x128.Idx → EReal)
    = transpose S128x128 [1, 0]
        (extractStridedSlice S128x128 ![0, 128] (m ((c : Thread nD τ).loc main_arg4)) Facts₀.slices_S128x256_S128x128_0_128)
        Facts₀.transposes_S128x128_S128x128_1_0 := by
  dsimp only [V1, W1, W0, hostOps0]; after_results; rfl

/-- seq in the narrower format. -/
theorem term_seq (c : Dev nD) : (V1 m ρ c main_call0_v10 : S10000x128.Idx → EReal)
    = truncf (F := Ideal) .bf16 (m ((c : Thread nD τ).loc main_arg1)) Facts₀.bitsLt_bf16_f32 := by
  dsimp only [V1, W1, W0, hostOps0]; after_results; rfl

attribute [local irreducible] Host.scatter in
/-- The block of zeros with gamma scattered at start row 0 and then beta at start row 1. -/
theorem term_gb (c : Dev nD) : (V1 m ρ c main_call0_v9 : S8x128.Idx → EReal) =
    Host.scatter scatter_S8x128_S1_S128_0_0_0_0 (fun _ b => b)
      (Host.scatter scatter_S8x128_S1_S128_0_0_0_0 (fun _ b => b)
        (broadcastInDim S8x128 ![] Facts₀.bcast_S_S8x128 (constant (F := Ideal) S_ .f32 0x00000000#32))
        (broadcastInDim S1 ![] Facts₀.bcast_S_S1 (constantI S_ 32 0#32))
        (m ((c : Thread nD τ).loc main_arg5)))
      (broadcastInDim S1 ![] Facts₀.bcast_S_S1 (constantI S_ 32 1#32))
      (m ((c : Thread nD τ).loc main_arg6)) := by
  dsimp only [V1, W1, W0, hostOps0]; after_results; rfl

end Terms

/-! ## A scatter of one row

The scatter's fold writes update element `n` at the operand index (start row, `n`): rows are distinct from the other
rows, and columns from each other, so the result is the operand with the start row replaced by the update. -/

section Scatter
variable {α : Type}

/-- A left fold of point writes leaves an index that no step writes as it was. -/
theorem foldl_write_of_forall_ne {ι κ : Type} [DecidableEq ι] (g : κ → ι) (v : κ → α) (l : List κ) (x : ι → α) (i : ι)
    (h : ∀ n ∈ l, i ≠ g n) :
    (l.foldl (fun r n => fun i' => if i' = g n then v n else r i') x) i = x i := by
  induction l generalizing x with
  | nil => rfl
  | cons n l ih =>
    rw [List.foldl_cons, ih _ (fun n' hn' => h n' (List.mem_cons_of_mem _ hn'))]
    exact if_neg (h n List.mem_cons_self)

/-- A left fold of point writes at pairwise distinct indices leaves, at the index step `n0` writes, what that step wrote. -/
theorem foldl_write_of_mem {ι κ : Type} [DecidableEq ι] (g : κ → ι) (hg : Function.Injective g) (v : κ → α) (l : List κ)
    (hl : l.Nodup) (x : ι → α) (n0 : κ) (h : n0 ∈ l) (i : ι) (hi : i = g n0) :
    (l.foldl (fun r n => fun i' => if i' = g n then v n else r i') x) i = v n0 := by
  subst hi
  induction l generalizing x with
  | nil => cases h
  | cons n l ih =>
    rw [List.foldl_cons]
    rcases List.mem_cons.1 h with rfl | h'
    · rw [foldl_write_of_forall_ne g v l _ (g n0) (fun n' hn' e => (List.nodup_cons.1 hl).1 (hg e ▸ hn'))]
      exact if_pos rfl
    · exact ih (List.nodup_cons.1 hl).2 _ h'

/-- The index table of one start row has one entry. -/
theorem S1_idx_eq (k : S1.Idx) : k = ix1 (0 : Fin 1) := by
  funext a
  match a with
  | ⟨0, _⟩ => exact Fin.ext (Nat.lt_one_iff.1 (k ⟨0, _⟩).isLt)

/-- Update element `j` of a one-row scatter lands in the start row at its own column. -/
theorem resultIdx_row (idx : IVec S1 32) (r : Fin 8) (hr : (idx (ix1 (0 : Fin 1))).toInt = (r.val : Int)) (j : S128.Idx) :
    scatter_S8x128_S1_S128_0_0_0_0.resultIdx? j idx = some (ix2 r (j 0)) := by
  have hs0 : scatter_S8x128_S1_S128_0_0_0_0.start j idx 0 = (r.val : Int) := by
    unfold ScatterDims.start
    rw [dif_pos (by decide), S1_idx_eq (scatter_S8x128_S1_S128_0_0_0_0.siIdx j _)]
    exact hr
  have hs1 : scatter_S8x128_S1_S128_0_0_0_0.start j idx 1 = 0 := by
    unfold ScatterDims.start
    exact dif_neg (by decide)
  have hw0 : scatter_S8x128_S1_S128_0_0_0_0.window j 0 = 0 := by
    unfold ScatterDims.window
    exact dif_neg (by decide)
  have hw1 : scatter_S8x128_S1_S128_0_0_0_0.window j 1 = (j 0).val := by
    unfold ScatterDims.window
    rw [dif_pos (by decide)]
    rfl
  have hj : (j 0).val < 128 := (j 0).isLt
  have hrl : r.val < 8 := r.isLt
  have hall : ∀ a, 0 ≤ scatter_S8x128_S1_S128_0_0_0_0.start j idx a + scatter_S8x128_S1_S128_0_0_0_0.window j a ∧
      scatter_S8x128_S1_S128_0_0_0_0.start j idx a + scatter_S8x128_S1_S128_0_0_0_0.window j a < S8x128.size a := by
    intro a
    match a with
    | ⟨0, _⟩ =>
      show 0 ≤ scatter_S8x128_S1_S128_0_0_0_0.start j idx 0 + (scatter_S8x128_S1_S128_0_0_0_0.window j 0 : Int) ∧
        scatter_S8x128_S1_S128_0_0_0_0.start j idx 0 + (scatter_S8x128_S1_S128_0_0_0_0.window j 0 : Int) < ((8 : ℕ) : Int)
      rw [hs0, hw0]; omega
    | ⟨1, _⟩ =>
      show 0 ≤ scatter_S8x128_S1_S128_0_0_0_0.start j idx 1 + (scatter_S8x128_S1_S128_0_0_0_0.window j 1 : Int) ∧
        scatter_S8x128_S1_S128_0_0_0_0.start j idx 1 + (scatter_S8x128_S1_S128_0_0_0_0.window j 1 : Int) < ((128 : ℕ) : Int)
      rw [hs1, hw1]; omega
  unfold ScatterDims.resultIdx?
  rw [dif_pos hall]
  refine congrArg some (funext fun a => Fin.ext ?_)
  match a with
  | ⟨0, _⟩ =>
    show (scatter_S8x128_S1_S128_0_0_0_0.start j idx 0 + (scatter_S8x128_S1_S128_0_0_0_0.window j 0 : Int)).toNat = r.val
    rw [hs0, hw0]; omega
  | ⟨1, _⟩ =>
    show (scatter_S8x128_S1_S128_0_0_0_0.start j idx 1 + (scatter_S8x128_S1_S128_0_0_0_0.window j 1 : Int)).toNat = (j 0).val
    rw [hs1, hw1]; omega

/-- A one-row scatter that keeps the update replaces the start row by the update and keeps every other row. -/
theorem scatter_row (x : S8x128.Idx → α) (idx : IVec S1 32) (upd : S128.Idx → α) (r : Fin 8)
    (hr : (idx (ix1 (0 : Fin 1))).toInt = (r.val : Int)) (p : Fin 8) (q : Fin 128) :
    Host.scatter scatter_S8x128_S1_S128_0_0_0_0 (fun _ b => b) x idx upd (ix2 p q)
      = if p = r then upd (ix1 q) else x (ix2 p q) := by
  unfold Host.scatter
  simp only [resultIdx_row idx r hr]
  by_cases hp : p = r
  · rw [if_pos hp]
    subst hp
    refine (foldl_write_of_mem (fun n : Fin S128.numel => (ix2 p ((S128.rowMajor.symm n) 0) : S8x128.Idx))
      (fun n n' e => ?_) (fun n => upd (S128.rowMajor.symm n)) _ (List.nodup_finRange _) x (S128.rowMajor (ix1 q))
      (List.mem_finRange _) (ix2 p q) ?_).trans ?_
    · have e1 : (S128.rowMajor.symm n) 0 = (S128.rowMajor.symm n') 0 := congrFun e 1
      have e2 : S128.rowMajor.symm n = S128.rowMajor.symm n' := by
        rw [eq_ix1 (S128.rowMajor.symm n), eq_ix1 (S128.rowMajor.symm n')]
        exact congrArg ix1 e1
      exact S128.rowMajor.symm.injective e2
    · rw [Equiv.symm_apply_apply]
    · exact congrArg upd (Equiv.symm_apply_apply _ _)
  · rw [if_neg hp]
    exact foldl_write_of_forall_ne (fun n : Fin S128.numel => (ix2 r ((S128.rowMajor.symm n) 0) : S8x128.Idx))
      (fun n => upd (S128.rowMajor.symm n)) _ x (ix2 p q) (fun n _ e => hp (congrFun e 0))

end Scatter

variable (m : (ℓ : Loc nD τ sig) → Buf (Elt Ideal) ℓ) (ρ : Dev nD → PrngReg)

/-- The first region's third operand is the transpose of W1. -/
theorem V1_w1t (c : Dev nD) : fn2 (n := 128) (k := 128) (V1 m ρ c main_call0_v0) = w1t (fn2 (n := 128) (k := 128) (m ((c : Thread nD τ).loc main_arg3))) := by
  funext p q
  exact (congrFun (term_w1t m ρ c) (ix2 p q)).trans (transpose_ix2_apply _ _ p q)
/-- The second region's third operand is the transposed first half of W2. -/
theorem V1_w2a (c : Dev nD) : fn2 (n := 128) (k := 128) (V1 m ρ c main_call0_v2) = w2a (fn2 (n := 128) (k := 256) (m ((c : Thread nD τ).loc main_arg4))) := by
  funext p q
  refine (congrFun (term_w2a m ρ c) (ix2 p q)).trans ?_
  refine (transpose_ix2_apply _ _ p q).trans ?_
  exact slice2_axis1_apply 0 _ _ q p ⟨p.val, by omega⟩ (Nat.zero_add _).symm
/-- The second region's fourth operand is the transposed second half of W2. -/
theorem V1_w2b (c : Dev nD) : fn2 (n := 128) (k := 128) (V1 m ρ c main_call0_v4) = w2b (fn2 (n := 128) (k := 256) (m ((c : Thread nD τ).loc main_arg4))) := by
  funext p q
  refine (congrFun (term_w2b m ρ c) (ix2 p q)).trans ?_
  refine (transpose_ix2_apply _ _ p q).trans ?_
  exact slice2_axis1_apply 128 _ _ q p ⟨128 + p.val, by omega⟩ rfl
/-- The parameter block holds gamma in row 0 and beta in row 1. -/
theorem V1_gb (c : Dev nD) : fn2 (n := 8) (k := 128) (V1 m ρ c main_call0_v9) = gbK (fn1 (n := 128) (m ((c : Thread nD τ).loc main_arg5))) (fn1 (n := 128) (m ((c : Thread nD τ).loc main_arg6))) := by
  funext r j
  refine (congrFun (term_gb m ρ c) (ix2 r j)).trans ?_
  -- the later scatter decides row 1, the earlier one row 0, and the rows below read the zeros
  rw [scatter_row _ _ _ (1 : Fin 8) rfl r j, scatter_row _ _ _ (0 : Fin 8) rfl r j,
    broadcastInDim_scalar_apply, constant_apply, Ideal.ofBits_zero_f32]
  change _ = (if r.val = 0 then _ else if r.val = 1 then _ else (0 : EReal))
  by_cases h1 : r = 1
  · subst h1; rfl
  · rw [if_neg h1]
    by_cases h0 : r = 0
    · subst h0; rfl
    · rw [if_neg h0, if_neg (fun e : r.val = 0 => h0 (Fin.ext e)), if_neg (fun e : r.val = 1 => h1 (Fin.ext e))]
/-- The first region's second operand is seq (the change of format is the identity). -/
theorem V1_seq (c : Dev nD) : fn2 (n := 10000) (k := 128) (V1 m ρ c main_call0_v10) = fn2 (n := 10000) (k := 128) (m ((c : Thread nD τ).loc main_arg1)) := by
  funext p q
  exact congrFun (term_seq m ρ c) (ix2 p q)
/-- adj reaches the first region as launched. -/
theorem V1_adj (c : Dev nD) : V1 m ρ c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.ternary_writes,
      Finset.mem_singleton]
    repeat' apply And.intro
    all_goals exact StableHlo.devRef_ne_of_ne (by decide)))
/-- seq_self reaches the regions as launched. -/
theorem V1_self (c : Dev nD) : V1 m ρ c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.ternary_writes,
      Finset.mem_singleton]
    repeat' apply And.intro
    all_goals exact StableHlo.devRef_ne_of_ne (by decide)))

end Cert.KernelIdeal.HostVal

end
-- ==== Proof.KVal.lean ====
/-
  The kernel program's result array as a function of its seven arguments.

  The result is the second region's output window. That region is entered with the first region's two outputs —
  the [10000, 128] product and the [8, 128] accumulator of its column sums and sums of squares — in place, and with
  every other buffer as the host operations before the first region left it: seq_self and adj as launched, the
  transposed W1, the two transposed halves of W2, the parameter block with gamma and beta in its first two rows,
  and seq (its change of format is the identity on the extended reals).
-/
import proofs.«141231_g61323543053001_cont_9to1c4b_809_8_alg».proof.Proof.KRun
import proofs.«141231_g61323543053001_cont_9to1c4b_809_8_alg».proof.Proof.KReg0
import proofs.«141231_g61323543053001_cont_9to1c4b_809_8_alg».proof.Proof.KReg1
import proofs.«141231_g61323543053001_cont_9to1c4b_809_8_alg».proof.Proof.KHost

set_option maxRecDepth 16384

noncomputable section

namespace Cert.KernelIdeal.KVal

open Cert.KernelIdeal Cert.KernelIdeal.Gen Cert.Spec
open Idealize.ShloMosaic Idealize.ShloMosaic.TcCoe Idealize.ShloMosaic.ValueIdx
open scoped BigOperators

variable (m : (ℓ : Loc nD τ sig) → Buf (Elt Ideal) ℓ) (ρ : Dev nD → PrngReg)

/-- A buffer no window of the first region names is, at the second region's entry, as the host operations left it. -/
theorem V2_of_ne (c : Dev nD) (b : Ref sig .tc) (hb : ∀ w, Pipeline.arrRef spec0 w ≠ b) : V2 m ρ c b = V1 m ρ c b :=
  W2_of_ne m ρ c b hb

/-- The first region's product, from the arguments. -/
theorem V2_h (c : Dev nD) :
    fn2 (n := 10000) (k := 128) (V2 m ρ c main_call0_v11_0)
      = hK (fn2 (n := 10000) (k := 10000) (m ((c : Thread nD τ).loc main_arg2)))
          (fn2 (n := 10000) (k := 128) (m ((c : Thread nD τ).loc main_arg1)))
          (w1t (fn2 (n := 128) (k := 128) (m ((c : Thread nD τ).loc main_arg3)))) := by
  have e : V2 m ρ c main_call0_v11_0 = (dat0 (V1 m ρ) c).arrAt 3 cfg0.N := (hF0 m ρ c 3).symm
  rw [e, Reg0.final0_h (V1 m ρ) c, fn2_arr2, HostVal.V1_adj m ρ c, HostVal.V1_seq m ρ c, HostVal.V1_w1t m ρ c]

/-- The first region's accumulator, from the arguments. -/
theorem V2_st (c : Dev nD) :
    fn2 (n := 8) (k := 128) (V2 m ρ c main_call0_v11_1)
      = statsK (hK (fn2 (n := 10000) (k := 10000) (m ((c : Thread nD τ).loc main_arg2)))
          (fn2 (n := 10000) (k := 128) (m ((c : Thread nD τ).loc main_arg1)))
          (w1t (fn2 (n := 128) (k := 128) (m ((c : Thread nD τ).loc main_arg3))))) := by
  have e : V2 m ρ c main_call0_v11_1 = (dat0 (V1 m ρ) c).arrAt 4 cfg0.N := (hF0 m ρ c 4).symm
  rw [e, Reg0.final0_st (V1 m ρ) c, fn2_arr2, HostVal.V1_adj m ρ c, HostVal.V1_seq m ρ c, HostVal.V1_w1t m ρ c]

/-- THE KERNEL'S VALUE: the result array at the last boundary is the kernel's formula of the seven arguments. -/
theorem W3_v0_eq (c : Dev nD) :
    W3 m ρ c (Proc.devRef .tc main_v0)
      = arr2 (outK (fn2 (n := 10000) (k := 128) (m ((c : Thread nD τ).loc main_arg0)))
          (fn2 (n := 10000) (k := 128) (m ((c : Thread nD τ).loc main_arg1)))
          (fn2 (n := 10000) (k := 10000) (m ((c : Thread nD τ).loc main_arg2)))
          (fn2 (n := 128) (k := 128) (m ((c : Thread nD τ).loc main_arg3)))
          (fn2 (n := 128) (k := 256) (m ((c : Thread nD τ).loc main_arg4)))
          (fn1 (n := 128) (m ((c : Thread nD τ).loc main_arg5)))
          (fn1 (n := 128) (m ((c : Thread nD τ).loc main_arg6)))) := by
  rw [GenRun.W3_v0 m ρ c, Reg1.final1 (V2 m ρ) c, V2_h m ρ c, V2_st m ρ c,
    V2_of_ne m ρ c main_arg0 (by decide), V2_of_ne m ρ c main_call0_v2 (by decide),
    V2_of_ne m ρ c main_call0_v4 (by decide), V2_of_ne m ρ c main_call0_v9 (by decide),
    HostVal.V1_self m ρ c, HostVal.V1_w2a m ρ c, HostVal.V1_w2b m ρ c, HostVal.V1_gb m ρ c]
  rfl

end Cert.KernelIdeal.KVal

end
-- ==== Proof.RefTerm.lean ====
/-
  The reference's result as one term of its seven argument arrays: its host operations composed in program
  order, the variance function's and its select's operations in place of their calls.

  `varTerm x ddof` is the variance function's body: the column sums of `x` divided by 10000 give the mean row; the
  squared deviations from it are summed per column and divided by `10000 - ddof` (as a float); where that divisor
  is not positive the quotient is replaced by a NaN pattern's value, through a select on one broadcast condition bit.
  `refTerm` is the whole program: the product adj · (seq · W1ᵀ), its column means, its column variances, the
  normalisation (h − mean) / sqrt (var + ε) · gamma + beta, tanh, the concatenation beside seq_self, the product
  with W2ᵀ and tanh again.
-/
import proofs.«141231_g61323543053001_cont_9to1c4b_809_8_alg».proof.Proof.Gen.ReferenceIdeal

noncomputable section

namespace Cert.ReferenceIdeal.RefValue

open Idealize.ShloMosaic Cert.ReferenceIdeal Cert.ReferenceIdeal.Facts₀ Cert.ReferenceIdeal.Facts

variable {F : FTy → Type} [FloatOps F]

/-- The variance function's body on its two operands. -/
def varTerm (x : FVec F S10000x128 .f32) (ddof : IVec S_ 32) : FVec F S1x128 .f32 :=
  let cst : FVec F S_ .f32 := constant S_ .f32 0x00000000#32
  let v0 : FVec F S128 .f32 := Host.reduceAdd x cst reducesTo_S10000x128_S128_d0 h_S_
  let v1 : FVec F S1x128 .f32 := broadcastInDim S1x128 ![1] bcast_S128_S1x128_1 v0
  let cst_0 : FVec F S_ .f32 := constant S_ .f32 0x461C4000#32
  let v2 : FVec F S1x128 .f32 := broadcastInDim S1x128 ![] bcast_S_S1x128 cst_0
  let v3 : FVec F S1x128 .f32 := Host.divf v1 v2
  let v4 : FVec F S10000x128 .f32 := broadcastInDim S10000x128 ![0, 1] bcast_S1x128_S10000x128_0_1 v3
  let v5 : FVec F S10000x128 .f32 := subf x v4
  let v6 : FVec F S10000x128 .f32 := mulf v5 v5
  let v7 : FVec F S_ .f32 := sitofp .f32 ddof
  let cst_1 : FVec F S_ .f32 := constant S_ .f32 0x461C4000#32
  let v8 : FVec F S_ .f32 := subf cst_1 v7
  let cst_2 : FVec F S_ .f32 := constant S_ .f32 0x00000000#32
  let v9 : FVec F S128 .f32 := Host.reduceAdd v6 cst_2 reducesTo_S10000x128_S128_d0 h_S_
  let v10 : FVec F S1x128 .f32 := broadcastInDim S1x128 ![1] bcast_S128_S1x128_1 v9
  let v11 : FVec F S1x128 .f32 := broadcastInDim S1x128 ![] bcast_S_S1x128 v8
  let v12 : FVec F S1x128 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let w1 : FVec F S1x128 .f32 := broadcastInDim S1x128 ![] bcast_S_S1x128 cst_4
  select (broadcastInDim S1x128 ![] bcast_S_S1x128 v13) v12 w1

/-- The reference's result from its seven arguments. -/
def refTerm (a0 a1 : FVec F S10000x128 .f32) (a2 : FVec F S10000x10000 .f32) (a3 : FVec F S128x128 .f32)
    (a4 : FVec F S128x256 .f32) (a5 a6 : FVec F S128 .f32) : FVec F S10000x128 .f32 :=
  let v0 : FVec F S128x128 .f32 := transpose S128x128 [1, 0] a3 transposes_S128x128_S128x128_1_0
  let v1 : FVec F S10000x128 .f32 := Host.dotGeneral dot_S10000x128_S128x128_S10000x128_1_0_0_1_n_n none a1 v0
  let v2 : FVec F S10000x128 .f32 := Host.dotGeneral dot_S10000x10000_S10000x128_S10000x128_1_0_0_1_n_n none a2 v1
  let cst : FVec F S_ .f32 := constant S_ .f32 0x00000000#32
  let v3 : FVec F S128 .f32 := Host.reduceAdd v2 cst reducesTo_S10000x128_S128_d0 h_S_
  let v4 : FVec F S1x128 .f32 := broadcastInDim S1x128 ![1] bcast_S128_S1x128_1 v3
  let cst_0 : FVec F S_ .f32 := constant S_ .f32 0x461C4000#32
  let v5 : FVec F S1x128 .f32 := broadcastInDim S1x128 ![] bcast_S_S1x128 cst_0
  let v6 : FVec F S1x128 .f32 := Host.divf v4 v5
  let c : IVec S_ 32 := constantI S_ 32 0#32
  let v7 : FVec F S1x128 .f32 := varTerm v2 c
  let v8 : FVec F S10000x128 .f32 := broadcastInDim S10000x128 ![0, 1] bcast_S1x128_S10000x128_0_1 v6
  let v9 : FVec F S10000x128 .f32 := subf v2 v8
  let cst_1 : FVec F S_ .f32 := constant S_ .f32 0x3727C5AC#32
  let v10 : FVec F S1x128 .f32 := broadcastInDim S1x128 ![] bcast_S_S1x128 cst_1
  let v11 : FVec F S1x128 .f32 := addf v7 v10
  let v12 : FVec F S1x128 .f32 := Host.sqrt v11
  let v13 : FVec F S10000x128 .f32 := broadcastInDim S10000x128 ![0, 1] bcast_S1x128_S10000x128_0_1 v12
  let v14 : FVec F S10000x128 .f32 := Host.divf v9 v13
  let v15 : FVec F S1x128 .f32 := broadcastInDim S1x128 ![1] bcast_S128_S1x128_1 a5
  let v16 : FVec F S10000x128 .f32 := broadcastInDim S10000x128 ![0, 1] bcast_S1x128_S10000x128_0_1 v15
  let v17 : FVec F S10000x128 .f32 := mulf v14 v16
  let v18 : FVec F S1x128 .f32 := broadcastInDim S1x128 ![1] bcast_S128_S1x128_1 a6
  let v19 : FVec F S10000x128 .f32 := broadcastInDim S10000x128 ![0, 1] bcast_S1x128_S10000x128_0_1 v18
  let v20 : FVec F S10000x128 .f32 := addf v17 v19
  let v21 : FVec F S10000x128 .f32 := Host.tanh v20
  let v22 : FVec F S10000x256 .f32 := concatenate S10000x256 1 [⟨S10000x128, a0⟩, ⟨S10000x128, v21⟩] concatenates_S10000x128_S10000x128_S10000x256_d1
  let v23 : FVec F S256x128 .f32 := transpose S256x128 [1, 0] a4 transposes_S128x256_S256x128_1_0
  let v24 : FVec F S10000x128 .f32 := Host.dotGeneral dot_S10000x256_S256x128_S10000x128_1_0_0_1_n_n none v22 v23
  Host.tanh v24

end Cert.ReferenceIdeal.RefValue

end
-- ==== Proof.RefRun.lean ====
/-
  The reference's run. The program is a straight line of array operations: those of its main function, with the
  variance function's operations, and inside them its select's, standing where the calls stand, each over the
  values that one call names. Run from any launch memory, every weakly fair execution ends with each value at the
  fold of those operations over the launch contents; read at the result, that fold is the composed term of the seven
  arguments, and read at an argument it is the argument itself, since no operation writes one.
-/
import proofs.«141231_g61323543053001_cont_9to1c4b_809_8_alg».proof.Proof.RefTerm
import Idealize.ShloMosaic.Lib.StableHlo.Run

noncomputable section

namespace Cert.ReferenceIdeal.RefRun

open Idealize.ShloMosaic Idealize.ShloMosaic.TcCoe Idealize.SL.Sem Cert.ReferenceIdeal Cert.ReferenceIdeal.RefValue
open Idealize.ShloMosaic.StableHlo
open Cert.ReferenceIdeal.Facts₀ Cert.ReferenceIdeal.Facts

variable {F : FTy → Type} [FloatOps F]

/-- The program's operations in order: the ten that form the product, its column sums and the mean row; the
    variance function's twenty over its own record of values, and its select's three; then the nineteen of the
    normalisation, the activation, the concatenation and the last product. -/
abbrev ops : List (HloOp τ sig (Elt F)) :=
  [ unary main_arg3 main_v0 ((transpose S128x128 [1, 0] · transposes_S128x128_S128x128_1_0) : (⟨S128x128, .f32⟩ : BufTy).Contents (Elt F) → (⟨S128x128, .f32⟩ : BufTy).Contents (Elt F)),
    binary main_arg1 main_v0 main_v1 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg2 main_v1 main_v2 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    nullary main_cst (constant S_ .f32 0x00000000#32),
    binary main_v2 main_cst main_v3 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    unary main_v3 main_v4 (broadcastInDim S1x128 ![1] bcast_S128_S1x128_1 : (⟨S128, .f32⟩ : BufTy).Contents (Elt F) → (⟨S1x128, .f32⟩ : BufTy).Contents (Elt F)),
    nullary main_cst_0 (constant S_ .f32 0x461C4000#32),
    unary main_cst_0 main_v5 (broadcastInDim S1x128 ![] bcast_S_S1x128 : (⟨S_, .f32⟩ : BufTy).Contents (Elt F) → (⟨S1x128, .f32⟩ : BufTy).Contents (Elt F)),
    binary main_v4 main_v5 main_v6 (Host.divf : (⟨S1x128, .f32⟩ : BufTy).Contents (Elt F) → (⟨S1x128, .f32⟩ : BufTy).Contents (Elt F) → (⟨S1x128, .f32⟩ : BufTy).Contents (Elt F)),
    nullary main_c (constantI S_ 32 0#32),
    TRef.nullary main_call0.cst (constant S_ .f32 0x00000000#32),
    TRef.binary (.of main_v2) main_call0.cst main_call0.v0 (fun x v => Host.reduceAdd x v reducesTo_S10000x128_S128_d0 h_S_),
    TRef.unary main_call0.v0 main_call0.v1 (broadcastInDim S1x128 ![1] bcast_S128_S1x128_1),
    TRef.nullary main_call0.cst_0 (constant S_ .f32 0x461C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S10000x128 ![0, 1] bcast_S1x128_S10000x128_0_1),
    TRef.binary (.of main_v2) main_call0.v4 main_call0.v5 subf,
    TRef.binary main_call0.v5 main_call0.v5 main_call0.v6 mulf,
    TRef.unary (.of main_c) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S128_d0 h_S_),
    TRef.unary main_call0.v9 main_call0.v10 (broadcastInDim S1x128 ![1] bcast_S128_S1x128_1),
    TRef.unary main_call0.v8 main_call0.v11 (broadcastInDim S1x128 ![] bcast_S_S1x128),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x128 ![] bcast_S_S1x128),
    TRef.ternary main_call0.v13 main_call0.v12 main_call0.call0.v1 main_call0.call0.v2 (fun p a b => select (broadcastInDim S1x128 ![] bcast_S_S1x128 p) a b),
    unary main_v6 main_v8 (broadcastInDim S10000x128 ![0, 1] bcast_S1x128_S10000x128_0_1 : (⟨S1x128, .f32⟩ : BufTy).Contents (Elt F) → (⟨S10000x128, .f32⟩ : BufTy).Contents (Elt F)),
    binary main_v2 main_v8 main_v9 (subf : (⟨S10000x128, .f32⟩ : BufTy).Contents (Elt F) → (⟨S10000x128, .f32⟩ : BufTy).Contents (Elt F) → (⟨S10000x128, .f32⟩ : BufTy).Contents (Elt F)),
    nullary main_cst_1 (constant S_ .f32 0x3727C5AC#32),
    unary main_cst_1 main_v10 (broadcastInDim S1x128 ![] bcast_S_S1x128 : (⟨S_, .f32⟩ : BufTy).Contents (Elt F) → (⟨S1x128, .f32⟩ : BufTy).Contents (Elt F)),
    binary main_v7 main_v10 main_v11 (addf : (⟨S1x128, .f32⟩ : BufTy).Contents (Elt F) → (⟨S1x128, .f32⟩ : BufTy).Contents (Elt F) → (⟨S1x128, .f32⟩ : BufTy).Contents (Elt F)),
    unary main_v11 main_v12 (Host.sqrt : (⟨S1x128, .f32⟩ : BufTy).Contents (Elt F) → (⟨S1x128, .f32⟩ : BufTy).Contents (Elt F)),
    unary main_v12 main_v13 (broadcastInDim S10000x128 ![0, 1] bcast_S1x128_S10000x128_0_1 : (⟨S1x128, .f32⟩ : BufTy).Contents (Elt F) → (⟨S10000x128, .f32⟩ : BufTy).Contents (Elt F)),
    binary main_v9 main_v13 main_v14 (Host.divf : (⟨S10000x128, .f32⟩ : BufTy).Contents (Elt F) → (⟨S10000x128, .f32⟩ : BufTy).Contents (Elt F) → (⟨S10000x128, .f32⟩ : BufTy).Contents (Elt F)),
    unary main_arg5 main_v15 (broadcastInDim S1x128 ![1] bcast_S128_S1x128_1 : (⟨S128, .f32⟩ : BufTy).Contents (Elt F) → (⟨S1x128, .f32⟩ : BufTy).Contents (Elt F)),
    unary main_v15 main_v16 (broadcastInDim S10000x128 ![0, 1] bcast_S1x128_S10000x128_0_1 : (⟨S1x128, .f32⟩ : BufTy).Contents (Elt F) → (⟨S10000x128, .f32⟩ : BufTy).Contents (Elt F)),
    binary main_v14 main_v16 main_v17 (mulf : (⟨S10000x128, .f32⟩ : BufTy).Contents (Elt F) → (⟨S10000x128, .f32⟩ : BufTy).Contents (Elt F) → (⟨S10000x128, .f32⟩ : BufTy).Contents (Elt F)),
    unary main_arg6 main_v18 (broadcastInDim S1x128 ![1] bcast_S128_S1x128_1 : (⟨S128, .f32⟩ : BufTy).Contents (Elt F) → (⟨S1x128, .f32⟩ : BufTy).Contents (Elt F)),
    unary main_v18 main_v19 (broadcastInDim S10000x128 ![0, 1] bcast_S1x128_S10000x128_0_1 : (⟨S1x128, .f32⟩ : BufTy).Contents (Elt F) → (⟨S10000x128, .f32⟩ : BufTy).Contents (Elt F)),
    binary main_v17 main_v19 main_v20 (addf : (⟨S10000x128, .f32⟩ : BufTy).Contents (Elt F) → (⟨S10000x128, .f32⟩ : BufTy).Contents (Elt F) → (⟨S10000x128, .f32⟩ : BufTy).Contents (Elt F)),
    unary main_v20 main_v21 (Host.tanh : (⟨S10000x128, .f32⟩ : BufTy).Contents (Elt F) → (⟨S10000x128, .f32⟩ : BufTy).Contents (Elt F)),
    binary main_arg0 main_v21 main_v22 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    unary main_arg4 main_v23 ((transpose S256x128 [1, 0] · transposes_S128x256_S256x128_1_0) : (⟨S128x256, .f32⟩ : BufTy).Contents (Elt F) → (⟨S256x128, .f32⟩ : BufTy).Contents (Elt F)),
    binary main_v22 main_v23 main_v24 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    unary main_v24 main_v25 (Host.tanh : (⟨S10000x128, .f32⟩ : BufTy).Contents (Elt F) → (⟨S10000x128, .f32⟩ : BufTy).Contents (Elt F)) ]

-- the chain of binds is re-associated once per operation
set_option maxRecDepth 2048 in
/-- The program is that straight line: the two functions' bodies put at their calls, sequencing re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

attribute [local irreducible] Host.reduceAdd concatenate in
set_option maxRecDepth 8192 in
set_option maxHeartbeats 400000 in
/-- The fold of the operations read at the result buffer is the composed term: each operation rewrites only the
    buffer it writes, so unrolling the fold and reading each operand at the operation that last wrote it gives the
    term's own chain of definitions. The sums and products are kept closed while the two sides are compared. -/
theorem out_eq (V : Valuation τ sig (Elt F)) :
    after ops V (main_v25 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem ops_sub : (ops : List (HloOp τ sig (Elt F))).Forall fun op => op.bufs ⊆ tcRefs τ sig :=
  ⟨unary_bufs_sub .., binary_bufs_sub .., binary_bufs_sub .., nullary_bufs_sub .., binary_bufs_sub .., unary_bufs_sub ..,
    nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., binary_bufs_sub .., unary_bufs_sub .., binary_bufs_sub ..,
    unary_bufs_sub ..⟩

/-- Every weakly fair execution of the program terminates with each buffer at the fold of the operations over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Every weakly fair execution of the reference terminates, nothing faulting, with its result at the composed term
    of the launch contents of its seven arguments, and the arguments as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v25)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  exact (θ_run defs _ _).mono
    (fun r h c => ⟨(h c main_v25).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _)⟩)
    (run_main m ρ)

end Cert.ReferenceIdeal.RefRun

end
-- ==== Proof.RefRead.lean ====
/-
  The reference's composed term read at an index.

  The term is a chain of array operations; read at the entry (i, j) each one becomes a statement about numbers.
  A product of a [M, K] by a [K, N] array is the sum over k of the products of entries; a transpose swaps the two
  coordinates; a sum over the rows from a zero initial value is the column's sum; a row laid as a [1, 128] array and
  repeated down the rows reads the row's entry at the column; a quotient, a square root and a hyperbolic tangent act
  entry by entry; two [10000, 128] arrays side by side read the first below column 128 and the second from there on.
  The variance function divides by the row count less an integer 0, which is the row count, and that divisor being
  positive its guard always keeps the quotient. The constant 0x461C4000 is the real 10000; the constant 0x3727C5AC is
  ε by definition and is never evaluated. Put together, the entry (i, j) of the term is `outR` of the seven
  arguments read at their coordinates.
-/
import proofs.«141231_g61323543053001_cont_9to1c4b_809_8_alg».proof.Proof.RefTerm
import proofs.«141231_g61323543053001_cont_9to1c4b_809_8_alg».proof.Proof.Spec
import proofs.«141231_g61323543053001_cont_9to1c4b_809_8_alg».proof.Proof.LibRowOps
import Idealize.ShloMosaic.Lib.IdealHost

noncomputable section

namespace Cert.ReferenceIdeal.RefRead

open Idealize.ShloMosaic Idealize.ShloMosaic.ValueIdx Cert.ReferenceIdeal Cert.ReferenceIdeal.RefValue Cert.Spec
open scoped BigOperators
open Cert.ReferenceIdeal.Facts₀

/-! ## The row count, the column sums, the mean row -/

/-- The single-precision word 0x461C4000 denotes the real 10000, the row count. -/
theorem ofBits_rows : Ideal.ofBits .f32 0x461C4000#32 = rows := by
  unfold rows
  simp [Ideal.ofBits, Ideal.ieee, -EReal.coe_mul]; norm_num

/-- A host sum over the rows from a zero initial value: at column `j`, the sum of that column. -/
theorem colSum_apply (x : FVec Ideal S10000x128 .f32) (h' : S10000x128.ReducesTo [0] S128) (hu : 0 < S_.numel) (j : Fin 128) :
    Host.reduceAdd x (constant (F := Ideal) S_ .f32 0x00000000#32) h' hu (ix1 j) = ∑ i : Fin 10000, x (ix2 i j) := by
  have h : S10000x128.Reduces [0] S128 := by decide
  rw [hostReduceAdd_apply, Ideal.hostReduceAdd_single h' h]
  rw [constant_apply, Ideal.ofBits_zero_f32, zero_add]
  refine Finset.sum_congr rfl fun i _ => congrArg x ?_
  funext a; match a with | ⟨0,_⟩ => rfl | ⟨1,_⟩ => rfl

/-- A row of 128 entries laid as a [1, 128] array reads, at (0, q), entry q. -/
theorem rowUp_apply {α : Type} (v : S128.Idx → α) (h : S128.BroadcastsInDim S1x128 (![1] : Fin 1 → Fin S1x128.rank)) (q : Fin 128) :
    broadcastInDim S1x128 ![1] h v (ix2 (0 : Fin 1) q) = v (ix1 q) :=
  broadcastInDim_apply _ h v _ _ fun a => match a with | ⟨0, _⟩ => rfl

/-- A [1, 128] array repeated down the 10000 rows reads, at (p, q), its entry (0, q). -/
theorem rowDown_apply {α : Type} (v : S1x128.Idx → α) (h : S1x128.BroadcastsInDim S10000x128 (![0, 1] : Fin 2 → Fin S10000x128.rank))
    (p : Fin 10000) (q : Fin 128) :
    broadcastInDim S10000x128 ![0, 1] h v (ix2 p q) = v (ix2 (0 : Fin 1) q) :=
  broadcastInDim_apply _ h v _ _ fun a => match a with | ⟨0, _⟩ => rfl | ⟨1, _⟩ => rfl

/-- The reference's mean row: the column sums divided by the row count. -/
theorem mean_apply (x : FVec Ideal S10000x128 .f32) (h' : S10000x128.ReducesTo [0] S128) (hu : 0 < S_.numel)
    (hb : S128.BroadcastsInDim S1x128 (![1] : Fin 1 → Fin S1x128.rank)) (hs : S_.BroadcastsInDim S1x128 (![] : Fin 0 → Fin S1x128.rank))
    (j : Fin 128) :
    Host.divf (broadcastInDim S1x128 ![1] hb (Host.reduceAdd x (constant (F := Ideal) S_ .f32 0x00000000#32) h' hu))
        (broadcastInDim S1x128 ![] hs (constant (F := Ideal) S_ .f32 0x461C4000#32)) (ix2 (0 : Fin 1) j)
      = meanR (fn2 (n := 10000) (k := 128) x) j := by
  rw [hostDivf_apply, rowUp_apply, colSum_apply, broadcastInDim_scalar_apply, constant_apply, ofBits_rows]
  rfl

/-! ## The variance row -/

/-- The variance's divisor: the row count less the integer 0, read exactly. -/
theorem divisor_apply (i : S_.Idx) :
    subf (constant (F := Ideal) S_ .f32 0x461C4000#32) (sitofp (F := Ideal) .f32 (constantI S_ 32 0#32)) i = rows := by
  rw [subf_apply, constant_apply, sitofp_apply, ofBits_rows]
  show rows - (((0#32 : BitVec 32).toInt : ℝ) : EReal) = rows
  simp

/-- The divisor is positive, so the comparison's bit is set. -/
theorem cond_apply (i : S_.Idx) :
    cmpf .ogt (subf (constant (F := Ideal) S_ .f32 0x461C4000#32) (sitofp (F := Ideal) .f32 (constantI S_ 32 0#32)))
      (constant (F := Ideal) S_ .f32 0x00000000#32) i = 1#1 := by
  rw [cmpf_apply, divisor_apply, constant_apply, Ideal.ofBits_zero_f32]
  show BitVec.ofBool (decide ((0 : EReal) < rows)) = 1#1
  have h : (0 : EReal) < rows := by unfold rows; exact_mod_cast (by norm_num : (0 : ℝ) < 10000)
  simp [h]

/-- A select on a bit known to be set is its first operand. -/
theorem select_of_one {α : Type} (c : BitVec 1) (a b : α) (h : c = 1#1) : Scalar.select c a b = a := by
  subst h; exact select_one a b

/-- The variance function's row: the column sums of the squared deviations from the mean, divided by the row count. -/
theorem var_apply (x : FVec Ideal S10000x128 .f32) (j : Fin 128) :
    varTerm x (constantI S_ 32 0#32) (ix2 (0 : Fin 1) j) = varR (fn2 (n := 10000) (k := 128) x) j := by
  unfold varTerm
  dsimp only
  rw [select_apply]
  refine (select_of_one _ _ _ ((broadcastInDim_scalar_apply _ _ _).trans (cond_apply _))).trans ?_
  rw [hostDivf_apply, rowUp_apply, colSum_apply, broadcastInDim_scalar_apply, divisor_apply]
  unfold varR
  refine congrArg (fun s => Ideal.div s rows) (Finset.sum_congr rfl fun i _ => ?_)
  rw [mulf_apply, subf_apply, rowDown_apply, mean_apply]
  rfl

/-! ## The product -/

/-- The reference's first two products, adj · (seq · W1ᵀ), at (i, j). -/
theorem h_apply (a1 : FVec Ideal S10000x128 .f32) (a2 : FVec Ideal S10000x10000 .f32) (a3 : FVec Ideal S128x128 .f32)
    (ht : S128x128.Transposes [1, 0] S128x128) (i : Fin 10000) (j : Fin 128) :
    Host.dotGeneral dot_S10000x10000_S10000x128_S10000x128_1_0_0_1_n_n none a2
        (Host.dotGeneral dot_S10000x128_S128x128_S10000x128_1_0_0_1_n_n none a1 (transpose S128x128 [1, 0] a3 ht)) (ix2 i j)
      = hR (fn2 (n := 10000) (k := 128) a1) (fn2 (n := 10000) (k := 10000) a2) (fn2 (n := 128) (k := 128) a3) i j := by
  refine (LibRowOps.dotGeneral_plain_apply (M := 10000) (K := 10000) (N := 128) _ rfl none a2 _ i j).trans ?_
  unfold hR
  refine Finset.sum_congr rfl fun l _ => congrArg (fun t => a2 (ix2 i l) * t) ?_
  refine (LibRowOps.dotGeneral_plain_apply (M := 10000) (K := 128) (N := 128) _ rfl none a1 _ l j).trans ?_
  refine Finset.sum_congr rfl fun k _ => congrArg (fun t => a1 (ix2 l k) * t) ?_
  exact transpose_ix2_apply a3 ht k j

/-- So that product, as a function of coordinates, is the reference's `h`. -/
theorem h_fn2 (a1 : FVec Ideal S10000x128 .f32) (a2 : FVec Ideal S10000x10000 .f32) (a3 : FVec Ideal S128x128 .f32)
    (ht : S128x128.Transposes [1, 0] S128x128) :
    fn2 (n := 10000) (k := 128) (Host.dotGeneral dot_S10000x10000_S10000x128_S10000x128_1_0_0_1_n_n none a2
        (Host.dotGeneral dot_S10000x128_S128x128_S10000x128_1_0_0_1_n_n none a1 (transpose S128x128 [1, 0] a3 ht)))
      = hR (fn2 (n := 10000) (k := 128) a1) (fn2 (n := 10000) (k := 10000) a2) (fn2 (n := 128) (k := 128) a3) := by
  funext i j
  exact h_apply a1 a2 a3 ht i j

/-! ## The normalised entry -/

/-- The host's square root at an index is the extended reals' square root of the entry. -/
theorem hostSqrt_apply {s : Shape} {φ : FTy} (v : FVec Ideal s φ) (i : s.Idx) : Host.sqrt v i = Ideal.sqrt (v i) := rfl
/-- The host's hyperbolic tangent at an index is the extended reals' hyperbolic tangent of the entry. -/
theorem hostTanh_apply {s : Shape} {φ : FTy} (v : FVec Ideal s φ) (i : s.Idx) : Host.tanh v i = Ideal.tanh (v i) := rfl

/-- The reference's operations from its product `x` to the activated array: the mean row, the variance row, the
    deviation over the square root of variance plus ε, times gamma, plus beta, through tanh. -/
def actTerm (x : FVec Ideal S10000x128 .f32) (a5 a6 : FVec Ideal S128 .f32) : FVec Ideal S10000x128 .f32 :=
  let cst : FVec Ideal S_ .f32 := constant S_ .f32 0x00000000#32
  let v3 : FVec Ideal S128 .f32 := Host.reduceAdd x cst reducesTo_S10000x128_S128_d0 h_S_
  let v4 : FVec Ideal S1x128 .f32 := broadcastInDim S1x128 ![1] bcast_S128_S1x128_1 v3
  let cst_0 : FVec Ideal S_ .f32 := constant S_ .f32 0x461C4000#32
  let v5 : FVec Ideal S1x128 .f32 := broadcastInDim S1x128 ![] bcast_S_S1x128 cst_0
  let v6 : FVec Ideal S1x128 .f32 := Host.divf v4 v5
  let c : IVec S_ 32 := constantI S_ 32 0#32
  let v7 : FVec Ideal S1x128 .f32 := varTerm x c
  let v8 : FVec Ideal S10000x128 .f32 := broadcastInDim S10000x128 ![0, 1] bcast_S1x128_S10000x128_0_1 v6
  let v9 : FVec Ideal S10000x128 .f32 := subf x v8
  let cst_1 : FVec Ideal S_ .f32 := constant S_ .f32 0x3727C5AC#32
  let v10 : FVec Ideal S1x128 .f32 := broadcastInDim S1x128 ![] bcast_S_S1x128 cst_1
  let v11 : FVec Ideal S1x128 .f32 := addf v7 v10
  let v12 : FVec Ideal S1x128 .f32 := Host.sqrt v11
  let v13 : FVec Ideal S10000x128 .f32 := broadcastInDim S10000x128 ![0, 1] bcast_S1x128_S10000x128_0_1 v12
  let v14 : FVec Ideal S10000x128 .f32 := Host.divf v9 v13
  let v15 : FVec Ideal S1x128 .f32 := broadcastInDim S1x128 ![1] bcast_S128_S1x128_1 a5
  let v16 : FVec Ideal S10000x128 .f32 := broadcastInDim S10000x128 ![0, 1] bcast_S1x128_S10000x128_0_1 v15
  let v17 : FVec Ideal S10000x128 .f32 := mulf v14 v16
  let v18 : FVec Ideal S1x128 .f32 := broadcastInDim S1x128 ![1] bcast_S128_S1x128_1 a6
  let v19 : FVec Ideal S10000x128 .f32 := broadcastInDim S10000x128 ![0, 1] bcast_S1x128_S10000x128_0_1 v18
  let v20 : FVec Ideal S10000x128 .f32 := addf v17 v19
  Host.tanh v20

/-- The activated array at (i, j) is the reference's normalised, activated entry. -/
theorem act_apply (x : FVec Ideal S10000x128 .f32) (a5 a6 : FVec Ideal S128 .f32) (i : Fin 10000) (j : Fin 128) :
    actTerm x a5 a6 (ix2 i j) = actR (fn2 (n := 10000) (k := 128) x) (fn1 (n := 128) a5) (fn1 (n := 128) a6) i j := by
  unfold actTerm actR
  dsimp only
  rw [hostTanh_apply]
  refine congrArg Ideal.tanh ?_
  rw [addf_apply, mulf_apply, hostDivf_apply, subf_apply]
  rw [rowDown_apply, rowDown_apply, rowDown_apply, rowDown_apply]
  rw [mean_apply, rowUp_apply, rowUp_apply, hostSqrt_apply, addf_apply, var_apply, broadcastInDim_scalar_apply, constant_apply]
  rfl

/-! ## The concatenation and the last product -/

/-- Two [10000, 128] pieces side by side: column `q` comes from the first piece when `q < 128`, else from the
    second at `q - 128`. -/
theorem cat_apply {α : Type} (a b : S10000x128.Idx → α) (h : Shape.Concatenates [S10000x128, S10000x128] S10000x256 1)
    (p : Fin 10000) (q : Fin 256) :
    concatenate S10000x256 1 [⟨S10000x128, a⟩, ⟨S10000x128, b⟩] h (ix2 p q)
      = if hq : q.val < 128 then a (ix2 p ⟨q.val, hq⟩) else b (ix2 p ⟨q.val - 128, by omega⟩) := by
  split
  · next hq =>
    exact concatenate_pair_apply_left 1 a b h (ix2 p q) rfl (ix2 p ⟨q.val, hq⟩)
      (fun c => by match c with | ⟨0, _⟩ => rfl | ⟨1, _⟩ => rfl)
  · next hq =>
    exact concatenate_pair_apply_right 1 a b h (ix2 p q) rfl rfl (ix2 p ⟨q.val - 128, by omega⟩)
      (fun c hc => by match c with | ⟨0, _⟩ => rfl | ⟨1, _⟩ => exact absurd rfl hc)
      (by show (q.val - 128) + 128 = q.val; omega)

/-- The reference's composed term, at the ideal instance, is the reference's formula of the arguments read at their
    coordinates. -/
theorem refTerm_eq (a0 a1 : FVec Ideal S10000x128 .f32) (a2 : FVec Ideal S10000x10000 .f32) (a3 : FVec Ideal S128x128 .f32)
    (a4 : FVec Ideal S128x256 .f32) (a5 a6 : FVec Ideal S128 .f32) :
    refTerm a0 a1 a2 a3 a4 a5 a6
      = arr2 (outR (fn2 (n := 10000) (k := 128) a0) (fn2 (n := 10000) (k := 128) a1) (fn2 (n := 10000) (k := 10000) a2)
          (fn2 (n := 128) (k := 128) a3) (fn2 (n := 128) (k := 256) a4) (fn1 (n := 128) a5) (fn1 (n := 128) a6)) := by
  funext idx
  obtain ⟨i, j, rfl⟩ : ∃ (i : Fin 10000) (j : Fin 128), idx = ix2 i j := ⟨idx 0, idx 1, eq_ix2 idx⟩
  rw [arr2_ix2]
  unfold refTerm outR
  dsimp only
  rw [hostTanh_apply]
  refine congrArg Ideal.tanh ?_
  refine (LibRowOps.dotGeneral_plain_apply (M := 10000) (K := 256) (N := 128) _ rfl none _ _ i j).trans ?_
  refine Finset.sum_congr rfl fun k _ => ?_
  rw [transpose_ix2_apply, cat_apply]
  refine congrArg (fun t => t * a4 (ix2 j k)) ?_
  unfold catR
  by_cases hk : k.val < 128
  · rw [dif_pos hk, dif_pos hk]
    rfl
  · rw [dif_neg hk, dif_neg hk]
    refine (act_apply _ a5 a6 i _).trans ?_
    rw [h_fn2]

end Cert.ReferenceIdeal.RefRead

end
-- ==== Proof.MathH.lean ====
import proofs.«141231_g61323543053001_cont_9to1c4b_809_8_alg».proof.Proof.Spec

noncomputable section

namespace Cert.Spec

open Idealize.ShloMosaic
open scoped BigOperators

/-! ## Real sums inside the extended reals

The inclusion of the reals is additive, so it passes through a finite sum; it is multiplicative as well. A sum of
products of real entries is therefore the image of the same sum taken in the reals, where multiplication distributes
over addition without exception. In the extended reals themselves distributivity fails at the infinities, which is why
the entries are required to be real. -/

/-- The inclusion of the reals passes through a finite sum. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The left association of a triple product of real entries, as the image of a real double sum. -/
private theorem left_real {ι κ : Type*} [Fintype ι] [Fintype κ] (a : ι → ℝ) (s : ι → κ → ℝ) (w : κ → ℝ) :
    (∑ l, (a l : EReal) * ∑ k, (s l k : EReal) * (w k : EReal)) = ((∑ l, a l * ∑ k, s l k * w k : ℝ) : EReal) := by
  simp only [coe_sum, EReal.coe_mul]

/-- The right association of a triple product of real entries, as the image of a real double sum. -/
private theorem right_real {ι κ : Type*} [Fintype ι] [Fintype κ] (a : ι → ℝ) (s : ι → κ → ℝ) (w : κ → ℝ) :
    (∑ k, (∑ l, (a l : EReal) * (s l k : EReal)) * (w k : EReal)) = ((∑ k, (∑ l, a l * s l k) * w k : ℝ) : EReal) := by
  simp only [coe_sum, EReal.coe_mul]

/-- In the reals the two associations agree: distribute both, exchange the order of summation, reassociate. -/
private theorem assoc_real {ι κ : Type*} [Fintype ι] [Fintype κ] (a : ι → ℝ) (s : ι → κ → ℝ) (w : κ → ℝ) :
    (∑ l, a l * ∑ k, s l k * w k) = ∑ k, (∑ l, a l * s l k) * w k := by
  simp only [Finset.mul_sum, Finset.sum_mul]
  rw [Finset.sum_comm]
  exact Finset.sum_congr rfl fun k _ => Finset.sum_congr rfl fun l _ => (mul_assoc _ _ _).symm

/-- When seq, adj and W1 hold real numbers, the two associations of the triple product agree: adj · (seq · W1ᵀ),
    the reference's, is (adj · seq) · W1ᵀ, the kernel's. -/
theorem hR_eq_hK (seq : Fin 10000 → Fin 128 → EReal) (adj : Fin 10000 → Fin 10000 → EReal) (W1 : Fin 128 → Fin 128 → EReal)
    (hseq : Fin2 seq) (hadj : Fin2 adj) (hW1 : Fin2 W1) : hR seq adj W1 = hK adj seq (w1t W1) := by
  choose seq' hseq' using hseq
  choose adj' hadj' using hadj
  choose W1' hW1' using hW1
  funext i j
  show (∑ l : Fin 10000, adj i l * ∑ k : Fin 128, seq l k * W1 j k)
      = ∑ k : Fin 128, (∑ l : Fin 10000, adj i l * seq l k) * W1 j k
  simp only [hseq', hadj', hW1']
  rw [left_real (adj' i) seq' (W1' j), right_real (adj' i) seq' (W1' j), assoc_real]

/-- And every entry of the product is a real number. -/
theorem hK_fin (seq : Fin 10000 → Fin 128 → EReal) (adj : Fin 10000 → Fin 10000 → EReal) (W1 : Fin 128 → Fin 128 → EReal)
    (hseq : Fin2 seq) (hadj : Fin2 adj) (hW1 : Fin2 W1) : Fin2 (hK adj seq (w1t W1)) := by
  choose seq' hseq' using hseq
  choose adj' hadj' using hadj
  choose W1' hW1' using hW1
  intro i j
  refine ⟨∑ k : Fin 128, (∑ l : Fin 10000, adj' i l * seq' l k) * W1' j k, ?_⟩
  show (∑ k : Fin 128, (∑ l : Fin 10000, adj i l * seq l k) * W1 j k) = _
  simp only [hseq', hadj', hW1']
  exact right_real (adj' i) seq' (W1' j)

end Cert.Spec

end
-- ==== Proof.MathBN.lean ====
import proofs.«141231_g61323543053001_cont_9to1c4b_809_8_alg».proof.Proof.Spec
import Mathlib.Algebra.BigOperators.Fin
import Mathlib.Analysis.SpecialFunctions.Sqrt
import Mathlib.Tactic.FieldSimp
import Mathlib.Tactic.Ring
import Mathlib.Tactic.Linarith

noncomputable section

namespace Cert.Spec

open Idealize.ShloMosaic
open scoped BigOperators

/-! ## Real numbers inside the extended reals -/

/-- The embedding of the reals carries a finite sum to the sum of the embedded terms. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ε is the real number 10995116 · 2⁻⁴⁰ (sign 0, exponent field 110, fraction 2606508), which is positive. -/
private theorem eps_pos : ∃ e : ℝ, 0 < e ∧ eps = (e : EReal) := by
  refine ⟨10995116 * (2 : ℝ) ^ (-40 : ℤ), by positivity, ?_⟩
  simp [eps, Ideal.ofBits, Ideal.ieee, -EReal.coe_mul]

/-- Over the reals, with μ the mean of 10000 numbers, the mean of the squared deviations from μ is the mean of
    the squares less μ². -/
private theorem var_real (x : Fin 10000 → ℝ) :
    (∑ i, (x i - (∑ i, x i) * (1 / 10000)) * (x i - (∑ i, x i) * (1 / 10000))) * (1 / 10000)
      = (∑ i, x i * x i) * (1 / 10000) - ((∑ i, x i) * (1 / 10000)) * ((∑ i, x i) * (1 / 10000)) := by
  set S := ∑ i, x i with hS
  have hexp : ∀ i, (x i - S * (1 / 10000)) * (x i - S * (1 / 10000))
      = x i * x i - 2 * (S * (1 / 10000)) * x i + (S * (1 / 10000)) * (S * (1 / 10000)) := fun i => by ring
  simp_rw [hexp]
  rw [Finset.sum_add_distrib, Finset.sum_sub_distrib, ← Finset.mul_sum, Finset.sum_const, Finset.card_univ,
    Fintype.card_fin, ← hS]
  simp only [nsmul_eq_mul]
  push_cast
  ring

/-! ## The two halves of the 256 columns -/

/-- A sum over 256 columns is the sum over the first 128 plus the sum over the last 128. -/
private theorem sum_split (f : Fin 256 → EReal) :
    ∑ k : Fin 256, f k
      = (∑ k : Fin 128, f ⟨k.val, by omega⟩) + ∑ k : Fin 128, f ⟨128 + k.val, by omega⟩ :=
  Fin.sum_univ_add (M := EReal) (a := 128) (b := 128) f

/-! ## One normalised entry -/

section Entry

variable (h' : Fin 10000 → Fin 128 → ℝ) (γ' β' : Fin 128 → ℝ)

/-- For real data the reference's normalised entry is the kernel's: both means are the real mean, both variances
    the real variance (by the identity above), which is nonnegative, so variance plus ε is positive, its square
    root and reciprocal square root are real, and (x − μ)/s · g + b = x · (g/s) + (b − μ · (g/s)). -/
private theorem actR_eq_actRow (i : Fin 10000) (k : Fin 128) :
    actR (fun i j => (h' i j : EReal)) (fun j => (γ' j : EReal)) (fun j => (β' j : EReal)) i k
      = actRow (statsK (fun i j => (h' i j : EReal)) 0) (statsK (fun i j => (h' i j : EReal)) 1)
          (gbK (fun j => (γ' j : EReal)) (fun j => (β' j : EReal)) 0)
          (gbK (fun j => (γ' j : EReal)) (fun j => (β' j : EReal)) 1) (h' i k : EReal) k := by
  obtain ⟨e, he, heps⟩ := eps_pos
  set H : Fin 10000 → Fin 128 → EReal := fun i j => (h' i j : EReal) with hH
  set Γ : Fin 128 → EReal := fun j => (γ' j : EReal) with hΓ
  set B : Fin 128 → EReal := fun j => (β' j : EReal) with hB
  -- the mean
  set μ : ℝ := (∑ i, h' i k) * (1 / 10000) with hμ
  have hmeanR : meanR H k = (μ : EReal) := by
    unfold meanR rows
    rw [Ideal.div_coe (by norm_num), hH, ← coe_sum, ← EReal.coe_mul]
  have hmeanK : meanRow (statsK H 0) k = (μ : EReal) := by
    show (∑ i : Fin 10000, H i k) * inv = _
    rw [hH, inv, ← coe_sum, ← EReal.coe_mul]
  -- the variance
  set v : ℝ := (∑ i, (h' i k - μ) * (h' i k - μ)) * (1 / 10000) with hv
  have hv0 : 0 ≤ v :=
    mul_nonneg (Finset.sum_nonneg fun i _ => mul_self_nonneg _) (by norm_num)
  have hvarR : varR H k = (v : EReal) := by
    unfold varR rows
    rw [hmeanR, Ideal.div_coe (by norm_num), hH]
    simp only [← EReal.coe_sub, ← EReal.coe_mul]
    rw [← coe_sum, ← EReal.coe_mul]
  have hvarK : varRow (statsK H 0) (statsK H 1) k = (v : EReal) := by
    unfold varRow
    rw [hmeanK]
    show (∑ i : Fin 10000, H i k * H i k) * inv - _ = _
    rw [hH, inv]
    simp only [← EReal.coe_mul]
    rw [← coe_sum, ← EReal.coe_mul, ← EReal.coe_sub, hv, hμ, var_real]
  -- the square root and its reciprocal
  have hpos : 0 < v + e := by linarith
  set s : ℝ := Real.sqrt (v + e) with hs
  have hs0 : 0 < s := Real.sqrt_pos.mpr hpos
  have hsqrt : Ideal.sqrt (varR H k + eps) = (s : EReal) := by
    rw [hvarR, heps, ← EReal.coe_add, Ideal.sqrt_coe, if_neg (not_lt.mpr hpos.le)]
  have hrsqrt : Ideal.rsqrt (varRow (statsK H 0) (statsK H 1) k + eps) = ((s⁻¹ : ℝ) : EReal) := by
    rw [hvarK, heps, ← EReal.coe_add, Ideal.rsqrt_coe, if_neg (not_lt.mpr hpos.le), if_neg hpos.ne']
  -- the affine identity under tanh
  unfold actR actRow shiftRow scaleRow
  rw [hsqrt, hrsqrt, hmeanR, hmeanK, Ideal.div_coe hs0.ne']
  show Ideal.tanh (((h' i k : EReal) - (μ : EReal)) * ((1 / s : ℝ) : EReal) * (γ' k : EReal) + (β' k : EReal))
    = Ideal.tanh ((h' i k : EReal) * ((γ' k : EReal) * ((s⁻¹ : ℝ) : EReal))
        + ((β' k : EReal) - (μ : EReal) * ((γ' k : EReal) * ((s⁻¹ : ℝ) : EReal))))
  simp only [← EReal.coe_sub, ← EReal.coe_mul, ← EReal.coe_add]
  refine congrArg Ideal.tanh (congrArg Real.toEReal ?_)
  field_simp
  ring

end Entry

/-! ## The assembly -/

/-- From a real-valued `h` on, the reference's formula — column mean and mean squared deviation, the quotient by
    the square root, gamma and beta, tanh, one product over the 256 concatenated columns, tanh — is the kernel's:
    sums and sums of squares times 1/10000, one scale and one shift per column, the product split in two halves. -/
theorem out_of_h (h self : Fin 10000 → Fin 128 → EReal) (W2 : Fin 128 → Fin 256 → EReal) (γ β : Fin 128 → EReal)
    (hh : Fin2 h) (hself : Fin2 self) (hW2 : Fin2 W2) (hγ : Fin1 γ) (hβ : Fin1 β) :
    (fun i j => Ideal.tanh (∑ k : Fin 256, catR self (actR h γ β) i k * W2 j k))
      = outK1 h self (w2a W2) (w2b W2) (statsK h) (gbK γ β) := by
  choose h' hh' using hh
  choose γ' hγ' using hγ
  choose β' hβ' using hβ
  obtain rfl : h = fun i j => (h' i j : EReal) := funext fun i => funext fun j => hh' i j
  obtain rfl : γ = fun j => (γ' j : EReal) := funext hγ'
  obtain rfl : β = fun j => (β' j : EReal) := funext hβ'
  funext i j
  show Ideal.tanh _ = Ideal.tanh (_ + _)
  refine congrArg Ideal.tanh ?_
  rw [sum_split]
  refine congrArg₂ (· + ·) (Finset.sum_congr rfl fun k _ => ?_) (Finset.sum_congr rfl fun k _ => ?_)
  · -- the first 128 columns meet seq_self
    show catR self _ i ⟨k.val, _⟩ * _ = self i k * w2a W2 k j
    unfold catR
    rw [dif_pos k.isLt]
    rfl
  · -- the last 128 columns meet the normalised part
    show catR self _ i ⟨128 + k.val, _⟩ * _ = _ * w2b W2 k j
    unfold catR
    rw [dif_neg (by simp)]
    have hk : (⟨(⟨128 + k.val, by omega⟩ : Fin 256).val - 128, by simp⟩ : Fin 128) = k :=
      Fin.ext (by simp)
    rw [hk, actR_eq_actRow]
    rfl

end Cert.Spec

end
-- ==== Proof.Math.lean ====
/-
  The bridge between the two programs' formulas, assembled: the two associations of the triple product agree on
  real inputs, and from the product on the reference's normalisation is the kernel's.
-/
import proofs.«141231_g61323543053001_cont_9to1c4b_809_8_alg».proof.Proof.MathH
import proofs.«141231_g61323543053001_cont_9to1c4b_809_8_alg».proof.Proof.MathBN

noncomputable section

namespace Cert.Spec

open Idealize.ShloMosaic
open scoped BigOperators

/-- THE BRIDGE. When every entry of every input is a real number, the reference's formula and the kernel's are one
    function of the inputs. -/
theorem outR_eq_outK (self seq : Fin 10000 → Fin 128 → EReal) (adj : Fin 10000 → Fin 10000 → EReal)
    (W1 : Fin 128 → Fin 128 → EReal) (W2 : Fin 128 → Fin 256 → EReal) (γ β : Fin 128 → EReal)
    (hself : Fin2 self) (hseq : Fin2 seq) (hadj : Fin2 adj) (hW1 : Fin2 W1) (hW2 : Fin2 W2) (hγ : Fin1 γ) (hβ : Fin1 β) :
    outR self seq adj W1 W2 γ β = outK self seq adj W1 W2 γ β := by
  unfold outR outK
  rw [hR_eq_hK seq adj W1 hseq hadj hW1]
  exact out_of_h _ self W2 γ β (hK_fin seq adj W1 hseq hadj hW1) hself hW2 hγ hβ

end Cert.Spec

end
-- ==== Proof.Finite.lean ====
import proofs.«141231_g61323543053001_cont_9to1c4b_809_8_alg».proof.Defs
import proofs.«141231_g61323543053001_cont_9to1c4b_809_8_alg».proof.Proof.Gen.KernelIdeal
import proofs.«141231_g61323543053001_cont_9to1c4b_809_8_alg».proof.Proof.Gen.Pre_finite_inputs
import proofs.«141231_g61323543053001_cont_9to1c4b_809_8_alg».proof.Proof.Spec
import Idealize.ShloMosaic.Lib.ReduceAll

noncomputable section

namespace Cert.Finite

open Idealize.ShloMosaic Idealize.ShloMosaic.ValueIdx Idealize.SL.Sem Cert.Spec

/-! ## Reading "all of |x| < +∞" back

The precondition asks, of each argument array, that the conjunction over all its entries of |x| < +∞ be 1, and joins
the seven answers by conjunction. A conjunction of single bits that is 1 has every member 1; |x| < +∞ excludes both
infinities, since |−∞| = +∞; what remains of the extended reals is the reals. -/

/-- The shape of a scalar has exactly one index. -/
private instance : Subsingleton Cert.Pre_finite_inputs.S_.Idx := ⟨fun a b => funext fun d => d.elim0⟩

/-- The single-precision word with all-ones exponent and zero fraction stands for +∞. -/
private theorem inf_word : Ideal.ofBits .f32 0x7F800000#32 = (⊤ : EReal) := by
  simp [Ideal.ofBits, Ideal.ieee]

/-- An extended real whose absolute value, the larger of x and −x, lies strictly below +∞ is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- If the conjunction over a whole array of |x| < +∞ is 1, every entry of the array is a real number. -/
private theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x)
            (broadcastInDim s ![] hb (constant (F := Ideal) Cert.Pre_finite_inputs.S_ .f32 0x7F800000#32)))
          init hr hu j = 1#1)
    (i : s.Idx) : ∃ r : ℝ, x i = (r : EReal) := by
  have hi := Host.reduce_andi_all _ init hr hu j e i
  have h2 : Ideal.cmp .olt (max (x i) (-(x i))) (Ideal.ofBits .f32 0x7F800000#32) = 1#1 := hi
  rw [inf_word] at h2
  refine real_of_abs_lt_top (x i) ?_
  by_contra hn
  simp [Ideal.cmp, hn] at h2

/-- Under the precondition every entry of each of the seven argument arrays is a real number. -/
theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    Fin2 (fn2 (n := 10000) (k := 128) (m ((c.tc : Thread Cert.KernelIdeal.nD Cert.KernelIdeal.τ).loc Cert.KernelIdeal.main_arg0)))
    ∧ Fin2 (fn2 (n := 10000) (k := 128) (m ((c.tc : Thread Cert.KernelIdeal.nD Cert.KernelIdeal.τ).loc Cert.KernelIdeal.main_arg1)))
    ∧ Fin2 (fn2 (n := 10000) (k := 10000) (m ((c.tc : Thread Cert.KernelIdeal.nD Cert.KernelIdeal.τ).loc Cert.KernelIdeal.main_arg2)))
    ∧ Fin2 (fn2 (n := 128) (k := 128) (m ((c.tc : Thread Cert.KernelIdeal.nD Cert.KernelIdeal.τ).loc Cert.KernelIdeal.main_arg3)))
    ∧ Fin2 (fn2 (n := 128) (k := 256) (m ((c.tc : Thread Cert.KernelIdeal.nD Cert.KernelIdeal.τ).loc Cert.KernelIdeal.main_arg4)))
    ∧ Fin1 (fn1 (n := 128) (m ((c.tc : Thread Cert.KernelIdeal.nD Cert.KernelIdeal.τ).loc Cert.KernelIdeal.main_arg5)))
    ∧ Fin1 (fn1 (n := 128) (m ((c.tc : Thread Cert.KernelIdeal.nD Cert.KernelIdeal.τ).loc Cert.KernelIdeal.main_arg6))) := by
  have h0 := congrFun (h c) ValueIdx.ix0
  dsimp only [Cert.Pre_finite_inputs.fn, Cert.Pre_finite_inputs.fn_part1] at h0
  obtain ⟨h05, h6⟩ := IntOp.andi_eq_one.1 h0
  obtain ⟨h04, h5⟩ := IntOp.andi_eq_one.1 h05
  obtain ⟨h03, h4⟩ := IntOp.andi_eq_one.1 h04
  obtain ⟨h02, h3⟩ := IntOp.andi_eq_one.1 h03
  obtain ⟨h01, h2⟩ := IntOp.andi_eq_one.1 h02
  obtain ⟨h0', h1⟩ := IntOp.andi_eq_one.1 h01
  refine ⟨?_, ?_, ?_, ?_, ?_, ?_, ?_⟩
  · exact fun p q => real_of_all _ _ _ _ _ _ h0' (ix2 p q)
  · exact fun p q => real_of_all _ _ _ _ _ _ h1 (ix2 p q)
  · exact fun p q => real_of_all _ _ _ _ _ _ h2 (ix2 p q)
  · exact fun p q => real_of_all _ _ _ _ _ _ h3 (ix2 p q)
  · exact fun p q => real_of_all _ _ _ _ _ _ h4 (ix2 p q)
  · exact fun p => real_of_all _ _ _ _ _ _ h5 (ix1 p)
  · exact fun p => real_of_all _ _ _ _ _ _ h6 (ix1 p)

end Cert.Finite

end
-- ==== Proof.lean ====
/-
  The certificate of a two-call kernel for a graph layer with batch normalisation against its jnp reference, over
  the extended reals.

  With h the [10000, 128] product of adj, seq and the transpose of W1, both programs normalise each column of h by its
  mean and population variance over the rows, scale by gamma, shift by beta, apply tanh, put the result beside
  seq_self, multiply by the transpose of W2 and apply tanh again. The kernel associates the triple product the other
  way, takes the variance as the mean of squares less the squared mean from two running column sums, multiplies by
  the reciprocal 1/10000 where the reference divides by 10000, folds the normalisation into one scale and one shift
  per column, and splits the last product in two. On inputs that are all finite every intermediate value is a real
  number and the two formulas are one function (Math.lean); the kernel's result array is read off its run region by
  region (KRun, KReg0, KReg1, KHost, KVal) and the reference's off its run (RefRun, RefRead).
-/
import proofs.«141231_g61323543053001_cont_9to1c4b_809_8_alg».proof.Defs
import proofs.«141231_g61323543053001_cont_9to1c4b_809_8_alg».proof.Proof.Gen.Kernel
import proofs.«141231_g61323543053001_cont_9to1c4b_809_8_alg».proof.Proof.Gen.Kernel.Frame
import proofs.«141231_g61323543053001_cont_9to1c4b_809_8_alg».proof.Proof.Gen.KernelIdeal
import proofs.«141231_g61323543053001_cont_9to1c4b_809_8_alg».proof.Proof.Gen.KernelIdeal.Frame
import proofs.«141231_g61323543053001_cont_9to1c4b_809_8_alg».proof.Proof.Gen.ReferenceIdeal
import proofs.«141231_g61323543053001_cont_9to1c4b_809_8_alg».proof.Proof.Gen.Pre_finite_inputs
import proofs.«141231_g61323543053001_cont_9to1c4b_809_8_alg».proof.Proof.KVal
import proofs.«141231_g61323543053001_cont_9to1c4b_809_8_alg».proof.Proof.RefRun
import proofs.«141231_g61323543053001_cont_9to1c4b_809_8_alg».proof.Proof.RefRead
import proofs.«141231_g61323543053001_cont_9to1c4b_809_8_alg».proof.Proof.Math
import proofs.«141231_g61323543053001_cont_9to1c4b_809_8_alg».proof.Proof.Finite
import Idealize.ShloMosaic.Adequacy
import Idealize.ShloMosaic.Init

noncomputable section

namespace Cert.Proof

open Idealize.ShloMosaic Idealize.SL.Sem Cert.Spec

/-- The word-level kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The two places where the kernel multiplies by the word nearest 1/10000 read, at the ideal instance, the rational
    1/10000 the certificate's table gives that name. -/
theorem preserves : Cert.preserves_Kernel_KernelIdeal :=
  ⟨IdealRules.named_const.statement Cert.KernelIdeal.κ "inv_10000" .f32 0x38D1B717#32 ((1 / 10000 : ℝ) : EReal) rfl,
   IdealRules.named_const.statement Cert.KernelIdeal.κ "inv_10000" .f32 0x38D1B717#32 ((1 / 10000 : ℝ) : EReal) rfl⟩

/-- From memories that agree on the seven arguments, all finite, both programs end with the kernel's formula of the
    arguments in their result arrays: the kernel by its value, the reference by its own formula and the bridge. -/
theorem algebraic : Cert.algebraic_KernelIdeal_ReferenceIdeal := by
  intro m ρ m' ρ' hpre hagree
  refine ⟨fun c => arr2 (outK
      (fn2 (n := 10000) (k := 128) (m ((c.tc : Thread Cert.KernelIdeal.nD Cert.KernelIdeal.τ).loc Cert.KernelIdeal.main_arg0)))
      (fn2 (n := 10000) (k := 128) (m ((c.tc : Thread Cert.KernelIdeal.nD Cert.KernelIdeal.τ).loc Cert.KernelIdeal.main_arg1)))
      (fn2 (n := 10000) (k := 10000) (m ((c.tc : Thread Cert.KernelIdeal.nD Cert.KernelIdeal.τ).loc Cert.KernelIdeal.main_arg2)))
      (fn2 (n := 128) (k := 128) (m ((c.tc : Thread Cert.KernelIdeal.nD Cert.KernelIdeal.τ).loc Cert.KernelIdeal.main_arg3)))
      (fn2 (n := 128) (k := 256) (m ((c.tc : Thread Cert.KernelIdeal.nD Cert.KernelIdeal.τ).loc Cert.KernelIdeal.main_arg4)))
      (fn1 (n := 128) (m ((c.tc : Thread Cert.KernelIdeal.nD Cert.KernelIdeal.τ).loc Cert.KernelIdeal.main_arg5)))
      (fn1 (n := 128) (m ((c.tc : Thread Cert.KernelIdeal.nD Cert.KernelIdeal.τ).loc Cert.KernelIdeal.main_arg6)))), ?_, ?_⟩
  · exact (θ_run Cert.KernelIdeal.defs _ _).mono
      (fun r h c => ⟨(h c).1.trans (Cert.KernelIdeal.KVal.W3_v0_eq m ρ c), (h c).2⟩)
      (Cert.KernelIdeal.GenRun.run_v0 (F := Ideal) m ρ)
  · refine (θ_run Cert.ReferenceIdeal.defs _ _).mono (fun r h c => ⟨(h c).1.trans ?_, (h c).2⟩)
      (Cert.ReferenceIdeal.RefRun.run (F := Ideal) m' ρ')
    obtain ⟨f0, f1, f2, f3, f4, f5, f6⟩ := Cert.Finite.of_pre m hpre c
    obtain ⟨a0, a1, a2, a3, a4, a5, a6⟩ := hagree c
    rw [Cert.ReferenceIdeal.RefRead.refTerm_eq, a0, a1, a2, a3, a4, a5, a6,
      outR_eq_outK _ _ _ _ _ _ _ f0 f1 f2 f3 f4 f5 f6]

end Cert.Proof

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
